-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S16384x512 : Shape := ⟨2, ![16384, 512]⟩
abbrev S512x1024 : Shape := ⟨2, ![512, 1024]⟩
abbrev S512 : Shape := ⟨1, ![512]⟩
abbrev S2048x256 : Shape := ⟨2, ![2048, 256]⟩
abbrev S2048 : Shape := ⟨1, ![2048]⟩
abbrev S2048x512 : Shape := ⟨2, ![2048, 512]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S2048x256 : S_.BroadcastsInDim S2048x256 (![] : Fin 0 → Fin S2048x256.rank)
  reducesTo_S2048x256_S_d0_1 : S2048x256.ReducesTo [0, 1] S_
  bcast_S_S2048 : S_.BroadcastsInDim S2048 (![] : Fin 0 → Fin S2048.rank)
  reducesTo_S2048_S_d0 : S2048.ReducesTo [0] S_
  bcast_S_S2048x512 : S_.BroadcastsInDim S2048x512 (![] : Fin 0 → Fin S2048x512.rank)
  reducesTo_S2048x512_S_d0_1 : S2048x512.ReducesTo [0, 1] S_

variable [Facts]

def fn_part3 {F : FTy → Type} [FloatOps F] (main_arg11 : FVec F S2048x512 .f32) (main_arg12 : FVec F S2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x512 .f32 := Host.absf main_arg11
  let main_cst_20 : FVec F S_ .f32 := constant S_ .f32 0x7F800000#32
  let main_v55 : FVec F S2048x512 .f32 := broadcastInDim S2048x512 ![] bcast_S_S2048x512 main_cst_20
  let main_v56 : IVec S2048x512 1 := cmpf .olt main_v54 main_v55
  let main_c_21 : IVec S_ 1 := constantI S_ 1 1#1
  let main_v57 : IVec S_ 1 := (fun x v => Host.reduce IntOp.andi x v reducesTo_S2048x512_S_d0_1 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  main_v63

def fn_part2 {F : FTy → Type} [FloatOps F] (main_arg7 : FVec F S512x1024 .f32) (main_arg8 : FVec F S512 .f32) (main_arg9 : FVec F S2048x256 .f32) (main_arg10 : FVec F S2048 .f32) (main_arg11 : FVec F S2048x512 .f32) (main_arg12 : FVec F S2048 .f32) (main_v33 : IVec S_ 1) : IVec S_ 1 :=
  let main_v34 : FVec F S512x1024 .f32 := Host.absf main_arg7
  let main_cst_12 : FVec F S_ .f32 := constant S_ .f32 0x7F800000#32
  let main_v35 : FVec F S512x1024 .f32 := broadcastInDim S512x1024 ![] bcast_S_S512x1024 main_cst_12
  let main_v36 : IVec S512x1024 1 := cmpf .olt main_v34 main_v35
  let main_c_13 : IVec S_ 1 := constantI S_ 1 1#1
  let main_v37 : IVec S_ 1 := (fun x v => Host.reduce IntOp.andi x v reducesTo_S512x1024_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S2048x256 .f32 := Host.absf main_arg9
  let main_cst_16 : FVec F S_ .f32 := constant S_ .f32 0x7F800000#32
  let main_v45 : FVec F S2048x256 .f32 := broadcastInDim S2048x256 ![] bcast_S_S2048x256 main_cst_16
  let main_v46 : IVec S2048x256 1 := cmpf .olt main_v44 main_v45
  let main_c_17 : IVec S_ 1 := constantI S_ 1 1#1
  let main_v47 : IVec S_ 1 := (fun x v => Host.reduce IntOp.andi x v reducesTo_S2048x256_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_v48 main_v49 main_v50

def fn_part1 {F : FTy → Type} [FloatOps F] (main_arg4 : FVec F S16384x512 .f32) (main_arg5 : FVec F S512x1024 .f32) (main_arg6 : FVec F S512 .f32) (main_arg7 : FVec F S512x1024 .f32) (main_arg8 : FVec F S512 .f32) (main_arg9 : FVec F S2048x256 .f32) (main_arg10 : FVec F S2048 .f32) (main_arg11 : FVec F S2048x512 .f32) (main_arg12 : FVec F S2048 .f32) (main_v13 : IVec S_ 1) (main_v16 : IVec S16384x512 1) : IVec S_ 1 :=
  let main_c_5 : IVec S_ 1 := constantI S_ 1 1#1
  let main_v17 : IVec S_ 1 := (fun x v => Host.reduce IntOp.andi x v reducesTo_S16384x512_S_d0_1 h_S_) main_v16 main_c_5
  let main_v18 : IVec S_ 1 := andi main_v13 main_v17
  let main_v19 : FVec F S16384x512 .f32 := Host.absf main_arg4
  let main_cst_6 : FVec F S_ .f32 := constant S_ .f32 0x7F800000#32
  let main_v20 : FVec F S16384x512 .f32 := broadcastInDim S16384x512 ![] bcast_S_S16384x512 main_cst_6
  let main_v21 : IVec S16384x512 1 := cmpf .olt main_v19 main_v20
  let main_c_7 : IVec S_ 1 := constantI S_ 1 1#1
  let main_v22 : IVec S_ 1 := (fun x v => Host.reduce IntOp.andi x v reducesTo_S16384x512_S_d0_1 h_S_) main_v21 main_c_7
  let main_v23 : IVec S_ 1 := andi main_v18 main_v22
  let main_v24 : FVec F S512x1024 .f32 := Host.absf main_arg5
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S16384x256 .f32) (main_arg1 : FVec F S16384x512 .f32) (main_arg2 : FVec F S16384x512 .f32) (main_arg3 : FVec F S16384x512 .f32) (main_arg4 : FVec F S16384x512 .f32) (main_arg5 : FVec F S512x1024 .f32) (main_arg6 : FVec F S512 .f32) (main_arg7 : FVec F S512x1024 .f32) (main_arg8 : FVec F S512 .f32) (main_arg9 : FVec F S2048x256 .f32) (main_arg10 : FVec F S2048 .f32) (main_arg11 : FVec F S2048x512 .f32) (main_arg12 : FVec F S2048 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S16384x512 .f32 := Host.absf main_arg3
  let main_cst_4 : FVec F S_ .f32 := constant S_ .f32 0x7F800000#32
  let main_v15 : FVec F S16384x512 .f32 := broadcastInDim S16384x512 ![] bcast_S_S16384x512 main_cst_4
  let main_v16 : IVec S16384x512 1 := cmpf .olt main_v14 main_v15
  fn_part1 (F := F) main_arg4 main_arg5 main_arg6 main_arg7 main_arg8 main_arg9 main_arg10 main_arg11 main_arg12 main_v13 main_v16
-- ==== Kernel.lean ====
abbrev S16384x256 : Shape := ⟨2, ![16384, 256]⟩
abbrev S16384x512 : Shape := ⟨2, ![16384, 512]⟩
abbrev S512x1024 : Shape := ⟨2, ![512, 1024]⟩
abbrev S512 : Shape := ⟨1, ![512]⟩
abbrev S2048x256 : Shape := ⟨2, ![2048, 256]⟩
abbrev S2048 : Shape := ⟨1, ![2048]⟩
abbrev S2048x512 : Shape := ⟨2, ![2048, 512]⟩
abbrev S512x512 : Shape := ⟨2, ![512, 512]⟩
abbrev S256x2048 : Shape := ⟨2, ![256, 2048]⟩
abbrev S512x2048 : Shape := ⟨2, ![512, 2048]⟩
abbrev S256x256 : Shape := ⟨2, ![256, 256]⟩
abbrev S256x512 : Shape := ⟨2, ![256, 512]⟩
abbrev S1x512 : Shape := ⟨2, ![1, 512]⟩
abbrev S1x2048 : Shape := ⟨2, ![1, 2048]⟩

abbrev nBuf : Space → Nat
  | .hbm => 31
  | .vmem => 24
  | .smem => 0
  | _ => 0

abbrev bufTy : (tb : Table) → Fin (tcTables nBuf tb) → BufTy
  | .hbm, ⟨0, _⟩ => ⟨S16384x256, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S512x1024, .f32⟩
  | .hbm, ⟨6, _⟩ => ⟨S512, .f32⟩
  | .hbm, ⟨7, _⟩ => ⟨S512x1024, .f32⟩
  | .hbm, ⟨8, _⟩ => ⟨S512, .f32⟩
  | .hbm, ⟨9, _⟩ => ⟨S2048x256, .f32⟩
  | .hbm, ⟨10, _⟩ => ⟨S2048, .f32⟩
  | .hbm, ⟨11, _⟩ => ⟨S2048x512, .f32⟩
  | .hbm, ⟨12, _⟩ => ⟨S2048, .f32⟩
  | .hbm, ⟨13, _⟩ => ⟨S512x512, .f32⟩
  | .hbm, ⟨14, _⟩ => ⟨S512x512, .f32⟩
  | .hbm, ⟨15, _⟩ => ⟨S512x512, .bf16⟩
  | .hbm, ⟨16, _⟩ => ⟨S512x512, .f32⟩
  | .hbm, ⟨17, _⟩ => ⟨S512x512, .f32⟩
  | .hbm, ⟨18, _⟩ => ⟨S512x512, .bf16⟩
  | .hbm, ⟨19, _⟩ => ⟨S512x512, .f32⟩
  | .hbm, ⟨20, _⟩ => ⟨S512x512, .f32⟩
  | .hbm, ⟨21, _⟩ => ⟨S512x512, .bf16⟩
  | .hbm, ⟨22, _⟩ => ⟨S512x512, .f32⟩
  | .hbm, ⟨23, _⟩ => ⟨S512x512, .f32⟩
  | .hbm, ⟨24, _⟩ => ⟨S512x512, .bf16⟩
  | .hbm, ⟨25, _⟩ => ⟨S256x2048, .f32⟩
  | .hbm, ⟨26, _⟩ => ⟨S256x2048, .bf16⟩
  | .hbm, ⟨27, _⟩ => ⟨S512x2048, .f32⟩
  | .hbm, ⟨28, _⟩ => ⟨S512x2048, .bf16⟩
  | .hbm, ⟨29, _⟩ => ⟨S16384x512, .f32⟩
  | .hbm, ⟨30, _⟩ => ⟨S16384x512, .f32⟩
  | .local _ .vmem, ⟨0, _⟩ => ⟨S256x256, .f32⟩
  | .local _ .vmem, ⟨1, _⟩ => ⟨S256x256, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S512x512, .bf16⟩
  | .local _ .vmem, ⟨11, _⟩ => ⟨S512x512, .bf16⟩
  | .local _ .vmem, ⟨12, _⟩ => ⟨S512, .f32⟩
  | .local _ .vmem, ⟨13, _⟩ => ⟨S512x512, .bf16⟩
  | .local _ .vmem, ⟨14, _⟩ => ⟨S512x512, .bf16⟩
  | .local _ .vmem, ⟨15, _⟩ => ⟨S512, .f32⟩
  | .local _ .vmem, ⟨16, _⟩ => ⟨S256x2048, .bf16⟩
  | .local _ .vmem, ⟨17, _⟩ => ⟨S2048, .f32⟩
  | .local _ .vmem, ⟨18, _⟩ => ⟨S512x2048, .bf16⟩
  | .local _ .vmem, ⟨19, _⟩ => ⟨S2048, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16_0 : Ref sig .tc := ⟨.hbm, 29, rfl⟩
abbrev main_v16_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  slices_S512x1024_S512x512_0_0 : S512x1024.Slices ![0, 0] S512x512
  transposes_S512x512_S512x512_1_0 : S512x512.Transposes [1, 0] S512x512
  bitsLt_bf16_f32 : FTy.bits .bf16 < FTy.bits .f32
  slices_S512x1024_S512x512_0_512 : S512x1024.Slices ![0, 512] S512x512
  transposes_S2048x256_S256x2048_1_0 : S2048x256.Transposes [1, 0] S256x2048
  transposes_S2048x512_S512x2048_1_0 : S2048x512.Transposes [1, 0] S512x2048
  inb_S256x512_S256x512_0_0 : ∀ a, (![0, 0] : Fin 2 → Nat) a + S256x512.size a ≤ S256x512.size a
  h_S256x512 : 0 < S256x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S256x512 : S1x512.Broadcasts S256x512
  inb_S256x256_S256x256_0_0 : ∀ a, (![0, 0] : Fin 2 → Nat) a + S256x256.size a ≤ S256x256.size a
  h_S256x256 : 0 < S256x256.numel
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S256x2048 : S1x2048.Broadcasts S256x2048
  slices_S256x2048_o0_0_S256x512 : S256x2048.Slices ![0, 0] S256x512
  slices_S256x2048_o0_512_S256x512 : S256x2048.Slices ![0, 512] S256x512
  slices_S256x2048_o0_1024_S256x512 : S256x2048.Slices ![0, 1024] S256x512
  slices_S256x2048_o0_1536_S256x512 : S256x2048.Slices ![0, 1536] S256x512
  dot_S256x512_S512x512_S256x512_1_0_0_1_n_n_wf : DotDims.WF S256x512 S512x512 S256x512 [1] [0] [0] [1] [] []
  dot_S256x256_S256x2048_S256x2048_1_0_0_1_n_n_wf : DotDims.WF S256x256 S256x2048 S256x2048 [1] [0] [0] [1] [] []
  dot_S256x512_S512x2048_S256x2048_1_0_0_1_n_n_wf : DotDims.WF S256x512 S512x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S16384x256.size a
  hwx0_0 : ∀ i : grid0.Coords, EltTy.bits .f32 = 32 ∨ (Rect.block (s := S16384x256) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S16384x512.size a
  hwx0_1 : ∀ i : grid0.Coords, EltTy.bits .f32 = 32 ∨ (Rect.block (s := S16384x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S16384x512.size a
  hwx0_2 : ∀ i : grid0.Coords, EltTy.bits .f32 = 32 ∨ (Rect.block (s := S16384x512) S256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S16384x512.size a
  hwx0_3 : ∀ i : grid0.Coords, EltTy.bits .f32 = 32 ∨ (Rect.block (s := S16384x512) S256x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S16384x512.size a
  hwx0_4 : ∀ i : grid0.Coords, EltTy.bits .f32 = 32 ∨ (Rect.block (s := S16384x512) S256x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .bf16 = 32 ∨ (Rect.block (s := S512x512) S512x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S512x512.size a
  hwx0_9 : ∀ i : grid0.Coords, EltTy.bits .bf16 = 32 ∨ (Rect.block (s := S512x512) S512x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512.size a ≤ S512.size a
  hwx0_10 : ∀ i : grid0.Coords, EltTy.bits .f32 = 32 ∨ (Rect.block (s := S512) S512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x2048.size a ≤ S256x2048.size a
  hwx0_11 : ∀ i : grid0.Coords, EltTy.bits .bf16 = 32 ∨ (Rect.block (s := S256x2048) S256x2048.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S2048.size a ≤ S2048.size a
  hwx0_12 : ∀ i : grid0.Coords, EltTy.bits .f32 = 32 ∨ (Rect.block (s := S2048) S2048.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x2048.size a ≤ S512x2048.size a
  hwx0_13 : ∀ i : grid0.Coords, EltTy.bits .bf16 = 32 ∨ (Rect.block (s := S512x2048) S512x2048.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S2048.size a ≤ S2048.size a
  hwx0_14 : ∀ i : grid0.Coords, EltTy.bits .f32 = 32 ∨ (Rect.block (s := S2048) S2048.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256x512.size a ≤ S16384x512.size a
  hwx0_15 : ∀ i : grid0.Coords, EltTy.bits .f32 = 32 ∨ (Rect.block (s := S16384x512) S256x512.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S256x512.size a ≤ S16384x512.size a
  hwx0_16 : ∀ i : grid0.Coords, EltTy.bits .f32 = 32 ∨ (Rect.block (s := S16384x512) S256x512.size (cc0_transform_16 i) (hinb0_16 i)).WholeWords (EltTy.packing .f32)

variable [Facts₀]

def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x256_S256x2048_S256x2048_1_0_0_1_n_n : DotDims S256x256 S256x2048 S256x2048 where
  lhsContracting := [1]
  rhsContracting := [0]
  lhsNonContracting := [0]
  rhsNonContracting := [1]
  lhsBatch := []
  rhsBatch := []
  wf := dot_S256x256_S256x2048_S256x2048_1_0_0_1_n_n_wf
def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S512x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v13) S256x2048.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg10) S2048.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v15) S512x2048.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg12) S2048.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v16_0) S256x512.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v16_1) S256x512.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S16384x256 : Shape := ⟨2, ![16384, 256]⟩
abbrev S16384x512 : Shape := ⟨2, ![16384, 512]⟩
abbrev S512x1024 : Shape := ⟨2, ![512, 1024]⟩
abbrev S512 : Shape := ⟨1, ![512]⟩
abbrev S2048x256 : Shape := ⟨2, ![2048, 256]⟩
abbrev S2048 : Shape := ⟨1, ![2048]⟩
abbrev S2048x512 : Shape := ⟨2, ![2048, 512]⟩
abbrev S16384x1024 : Shape := ⟨2, ![16384, 1024]⟩
abbrev S1024x512 : Shape := ⟨2, ![1024, 512]⟩
abbrev S1x512 : Shape := ⟨2, ![1, 512]⟩
abbrev S_ : Shape := ⟨0, ![]⟩
abbrev S256x2048 : Shape := ⟨2, ![256, 2048]⟩
abbrev S16384x2048 : Shape := ⟨2, ![16384, 2048]⟩
abbrev S1x2048 : Shape := ⟨2, ![1, 2048]⟩
abbrev S512x2048 : Shape := ⟨2, ![512, 2048]⟩

abbrev nBuf : Space → Nat
  | .hbm => 87
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S512x1024, .f32⟩
  | .hbm, ⟨6, _⟩ => ⟨S512, .f32⟩
  | .hbm, ⟨7, _⟩ => ⟨S512x1024, .f32⟩
  | .hbm, ⟨8, _⟩ => ⟨S512, .f32⟩
  | .hbm, ⟨9, _⟩ => ⟨S2048x256, .f32⟩
  | .hbm, ⟨10, _⟩ => ⟨S2048, .f32⟩
  | .hbm, ⟨11, _⟩ => ⟨S2048x512, .f32⟩
  | .hbm, ⟨12, _⟩ => ⟨S2048, .f32⟩
  | .hbm, ⟨13, _⟩ => ⟨S16384x1024, .f32⟩
  | .hbm, ⟨14, _⟩ => ⟨S1024x512, .f32⟩
  | .hbm, ⟨15, _⟩ => ⟨S16384x512, .f32⟩
  | .hbm, ⟨16, _⟩ => ⟨S1x512, .f32⟩
  | .hbm, ⟨17, _⟩ => ⟨S16384x512, .f32⟩
  | .hbm, ⟨18, _⟩ => ⟨S16384x512, .f32⟩
  | .hbm, ⟨19, _⟩ => ⟨S16384x512, .f32⟩
  | .hbm, ⟨20, _⟩ => ⟨S16384x512, .f32⟩
  | .hbm, ⟨21, _⟩ => ⟨S_, .f32⟩
  | .hbm, ⟨22, _⟩ => ⟨S16384x512, .f32⟩
  | .hbm, ⟨23, _⟩ => ⟨S16384x512, .f32⟩
  | .hbm, ⟨24, _⟩ => ⟨S_, .f32⟩
  | .hbm, ⟨25, _⟩ => ⟨S16384x512, .f32⟩
  | .hbm, ⟨26, _⟩ => ⟨S16384x512, .f32⟩
  | .hbm, ⟨27, _⟩ => ⟨S1024x512, .f32⟩
  | .hbm, ⟨28, _⟩ => ⟨S16384x512, .f32⟩
  | .hbm, ⟨29, _⟩ => ⟨S1x512, .f32⟩
  | .hbm, ⟨30, _⟩ => ⟨S16384x512, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S_, .f32⟩
  | .hbm, ⟨35, _⟩ => ⟨S16384x512, .f32⟩
  | .hbm, ⟨36, _⟩ => ⟨S16384x512, .f32⟩
  | .hbm, ⟨37, _⟩ => ⟨S_, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S16384x512, .f32⟩
  | .hbm, ⟨42, _⟩ => ⟨S256x2048, .f32⟩
  | .hbm, ⟨43, _⟩ => ⟨S16384x2048, .f32⟩
  | .hbm, ⟨44, _⟩ => ⟨S1x2048, .f32⟩
  | .hbm, ⟨45, _⟩ => ⟨S16384x2048, .f32⟩
  | .hbm, ⟨46, _⟩ => ⟨S16384x2048, .f32⟩
  | .hbm, ⟨47, _⟩ => ⟨S512x2048, .f32⟩
  | .hbm, ⟨48, _⟩ => ⟨S16384x2048, .f32⟩
  | .hbm, ⟨49, _⟩ => ⟨S16384x2048, .f32⟩
  | .hbm, ⟨50, _⟩ => ⟨S1x2048, .f32⟩
  | .hbm, ⟨51, _⟩ => ⟨S16384x2048, .f32⟩
  | .hbm, ⟨52, _⟩ => ⟨S16384x2048, .f32⟩
  | .hbm, ⟨53, _⟩ => ⟨S16384x512, .f32⟩
  | .hbm, ⟨54, _⟩ => ⟨S16384x512, .f32⟩
  | .hbm, ⟨55, _⟩ => ⟨S16384x512, .f32⟩
  | .hbm, ⟨56, _⟩ => ⟨S16384x512, .f32⟩
  | .hbm, ⟨57, _⟩ => ⟨S16384x512, .f32⟩
  | .hbm, ⟨58, _⟩ => ⟨S16384x512, .f32⟩
  | .hbm, ⟨59, _⟩ => ⟨S_, .f32⟩
  | .hbm, ⟨60, _⟩ => ⟨S16384x512, .f32⟩
  | .hbm, ⟨61, _⟩ => ⟨S16384x512, .f32⟩
  | .hbm, ⟨62, _⟩ => ⟨S_, .f32⟩
  | .hbm, ⟨63, _⟩ => ⟨S16384x512, .f32⟩
  | .hbm, ⟨64, _⟩ => ⟨S16384x512, .f32⟩
  | .hbm, ⟨65, _⟩ => ⟨S16384x512, .f32⟩
  | .hbm, ⟨66, _⟩ => ⟨S16384x512, .f32⟩
  | .hbm, ⟨67, _⟩ => ⟨S16384x512, .f32⟩
  | .hbm, ⟨68, _⟩ => ⟨S_, .f32⟩
  | .hbm, ⟨69, _⟩ => ⟨S16384x512, .f32⟩
  | .hbm, ⟨70, _⟩ => ⟨S16384x512, .f32⟩
  | .hbm, ⟨71, _⟩ => ⟨S_, .f32⟩
  | .hbm, ⟨72, _⟩ => ⟨S16384x512, .f32⟩
  | .hbm, ⟨73, _⟩ => ⟨S16384x512, .f32⟩
  | .hbm, ⟨74, _⟩ => ⟨S16384x512, .f32⟩
  | .hbm, ⟨75, _⟩ => ⟨S16384x512, .f32⟩
  | .hbm, ⟨76, _⟩ => ⟨S16384x512, .f32⟩
  | .hbm, ⟨77, _⟩ => ⟨S16384x512, .f32⟩
  | .hbm, ⟨78, _⟩ => ⟨S16384x512, .f32⟩
  | .hbm, ⟨79, _⟩ => ⟨S_, .f32⟩
  | .hbm, ⟨80, _⟩ => ⟨S16384x512, .f32⟩
  | .hbm, ⟨81, _⟩ => ⟨S16384x512, .f32⟩
  | .hbm, ⟨82, _⟩ => ⟨S_, .f32⟩
  | .hbm, ⟨83, _⟩ => ⟨S16384x512, .f32⟩
  | .hbm, ⟨84, _⟩ => ⟨S16384x512, .f32⟩
  | .hbm, ⟨85, _⟩ => ⟨S16384x512, .f32⟩
  | .hbm, ⟨86, _⟩ => ⟨S16384x512, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_3 : Ref sig .tc := ⟨.hbm, 59, rfl⟩
abbrev main_v42 : Ref sig .tc := ⟨.hbm, 60, rfl⟩
abbrev main_v43 : Ref sig .tc := ⟨.hbm, 61, rfl⟩
abbrev main_cst_4 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_5 : Ref sig .tc := ⟨.hbm, 68, rfl⟩
abbrev main_v49 : Ref sig .tc := ⟨.hbm, 69, rfl⟩
abbrev main_v50 : Ref sig .tc := ⟨.hbm, 70, rfl⟩
abbrev main_cst_6 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_7 : Ref sig .tc := ⟨.hbm, 79, rfl⟩
abbrev main_v58 : Ref sig .tc := ⟨.hbm, 80, rfl⟩
abbrev main_v59 : Ref sig .tc := ⟨.hbm, 81, rfl⟩
abbrev main_cst_8 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩

abbrev nD : Nat := 1
abbrev τ : Topo := Topo.v7x

variable {F : FTy → Type} [FloatOps F]

class Facts₀ : Prop where
  concatenates_S16384x512_S16384x512_S16384x1024_d1 : Shape.Concatenates [S16384x512, S16384x512] S16384x1024 1
  transposes_S512x1024_S1024x512_1_0 : S512x1024.Transposes [1, 0] S1024x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  transposes_S2048x256_S256x2048_1_0 : S2048x256.Transposes [1, 0] S256x2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  transposes_S2048x512_S512x2048_1_0 : S2048x512.Transposes [1, 0] S512x2048
  slices_S16384x2048_S16384x512_0_0 : S16384x2048.Slices ![0, 0] S16384x512
  slices_S16384x2048_S16384x512_0_512 : S16384x2048.Slices ![0, 512] S16384x512
  slices_S16384x2048_S16384x512_0_1024 : S16384x2048.Slices ![0, 1024] S16384x512
  slices_S16384x2048_S16384x512_0_1536 : S16384x2048.Slices ![0, 1536] S16384x512
  dot_S16384x1024_S1024x512_S16384x512_1_0_0_1_n_n_wf : DotDims.WF S16384x1024 S1024x512 S16384x512 [1] [0] [0] [1] [] []
  dot_S16384x256_S256x2048_S16384x2048_1_0_0_1_n_n_wf : DotDims.WF S16384x256 S256x2048 S16384x2048 [1] [0] [0] [1] [] []
  dot_S16384x512_S512x2048_S16384x2048_1_0_0_1_n_n_wf : DotDims.WF S16384x512 S512x2048 S16384x2048 [1] [0] [0] [1] [] []

variable [Facts₀]

def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf
def dot_S16384x256_S256x2048_S16384x2048_1_0_0_1_n_n : DotDims S16384x256 S256x2048 S16384x2048 where
  lhsContracting := [1]
  rhsContracting := [0]
  lhsNonContracting := [0]
  rhsNonContracting := [1]
  lhsBatch := []
  rhsBatch := []
  wf := dot_S16384x256_S256x2048_S16384x2048_1_0_0_1_n_n_wf
def dot_S16384x512_S512x2048_S16384x2048_1_0_0_1_n_n : DotDims S16384x512 S512x2048 S16384x2048 where
  lhsContracting := [1]
  rhsContracting := [0]
  lhsNonContracting := [0]
  rhsNonContracting := [1]
  lhsBatch := []
  rhsBatch := []
  wf := dot_S16384x512_S512x2048_S16384x2048_1_0_0_1_n_n_wf

class Facts : Prop extends Facts₀ where

variable [Facts]
-- ==== Proof.LibDense.lean ====
/-
  A dense layer read at an index, at the ideal values, for any extents.

  A plain matrix product of an [a, K] operand with a [K, b] operand into the zero accumulator, read at (p, q), is the
  sum over k < K of the left operand at (p, k) times the right operand at (k, q). The four facts it asks of the
  dimension record — the left operand is read at (row of the output, contraction coordinate), the right at
  (contraction coordinate, column of the output) — are what a record that contracts the left operand's axis 1 with
  the right operand's axis 0, with no batch axes, decides.

  A bias vector [b] cast to a row [1, b] and broadcast down the rows of [a, b], read at (p, q), is the vector at q.

  The logistic function and the hyperbolic tangent of an array, read at an index, are the function of the entry.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibDense

open Idealize.ShloMosaic Idealize.ShloMosaic.ValueIdx

/-- A plain [a, K] × [K, b] matrix product into the zero accumulator, read at (p, q): the sum over the contraction
    coordinate of the operands' products. The record `d` contracts one axis of extent `K` (`hr`, `hs`) and reads its
    operands at (p, k) and (k, q) (`hl0` … `hr1`). -/
theorem matmul_zero_apply {a K b : ℕ} {φ₁ φ₂ : FTy}
    (d : DotDims (⟨2, ![a, K]⟩ : Shape) (⟨2, ![K, b]⟩ : Shape) (⟨2, ![a, b]⟩ : Shape)) (prec : Option ContractPrecision)
    (hr : d.contr.rank = 1) (hs : d.contr.size ⟨0, by omega⟩ = K)
    (hl0 : ∀ (i : (⟨2, ![a, b]⟩ : Shape).Idx) (q : d.contr.Idx), (d.lhsIdx i q 0).val = (i 0).val)
    (hl1 : ∀ (i : (⟨2, ![a, b]⟩ : Shape).Idx) (q : d.contr.Idx), (d.lhsIdx i q 1).val = (q ⟨0, by omega⟩).val)
    (hr0 : ∀ (i : (⟨2, ![a, b]⟩ : Shape).Idx) (q : d.contr.Idx), (d.rhsIdx i q 0).val = (q ⟨0, by omega⟩).val)
    (hr1 : ∀ (i : (⟨2, ![a, b]⟩ : Shape).Idx) (q : d.contr.Idx), (d.rhsIdx i q 1).val = (i 1).val)
    (lhs : FVec Ideal (⟨2, ![a, K]⟩ : Shape) φ₁) (rhs : FVec Ideal (⟨2, ![K, b]⟩ : Shape) φ₂) (p : Fin a) (q : Fin b) :
    matmul d prec lhs rhs (constant (F := Ideal) (⟨2, ![a, b]⟩ : Shape) .f32 0x00000000#32) (ix2 p q)
      = ∑ k : Fin K, lhs (ix2 p k) * rhs (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun ax => Fin.ext (by
    match ax with
    | ⟨0, _⟩ => exact hl0 _ _
    | ⟨1, _⟩ => exact (hl1 _ _).trans hk)
  have er : d.rhsIdx (ix2 p q) ((contrEquiv1 d K hr hs).symm k) = ix2 k q := funext fun ax => Fin.ext (by
    match ax with
    | ⟨0, _⟩ => exact (hr0 _ _).trans hk
    | ⟨1, _⟩ => exact hr1 _ _)
  rw [el, er]

/-- The logistic function of an array, read at an index, is the logistic function of the entry there. -/
theorem logistic_apply {s : Shape} {φ : FTy} (x : FVec Ideal s φ) (i : s.Idx) : logistic x i = Ideal.logistic (x i) := rfl

/-- The hyperbolic tangent of an array, read at an index, is the hyperbolic tangent of the entry there. -/
theorem tanh_apply {s : Shape} {φ : FTy} (x : FVec Ideal s φ) (i : s.Idx) : tanh x i = Ideal.tanh (x i) := rfl

variable {α : Type}

/-- A vector [b] cast to a row [1, b] and broadcast down the rows of [a, b]: at (p, q), the vector at q. -/
theorem bias_row_apply {a b : ℕ} (v : (⟨1, ![b]⟩ : Shape).Idx → α)
    (h₁ : (⟨1, ![b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ v h₁) h₂ (ix2 p q) = v (ix1 q) :=
  (broadcastTo_1b_ab_apply _ h₂ p q).trans (shapeCast_a_1a_apply v h₁ 0 q)

end Cert.LibDense

end
-- ==== Proof.KernelBlock.lean ====
/-
  The body's three non-pointwise values, read at an index, at the ideal values.

  Over a block of 256 rows the body forms, from the blocks it loads,
    * the gated cell state   c[p, q] = cs[p, q] · σ((Σ_k ha[p, k] · A[k, q] + Σ_k hb[p, k] · B[k, q]) + b[q]),
    * the gated hidden state h[p, q] = hs[p, q] · σ(the same with the other gate's A, B, b),
    * the pre-activations    g[p, n] = ((Σ_k x[p, k] · U[k, n] + u[n]) + Σ_k h[p, k] · R[k, n]) + r[n],
  where A, B (512 × 512), U (256 × 2048) and R (512 × 2048) are the weight blocks as loaded, each matrix product
  runs into the zero accumulator, each bias is a vector laid as a row and repeated down the 256 rows, and the
  narrowing of a value to sixteen bits is the identity on the extended reals.
-/
import proofs.«171903_j83700322664663_1_alg».proof.Proof.Gen.KernelIdeal.Skeleton
import proofs.«171903_j83700322664663_1_alg».proof.Proof.LibDense

noncomputable section

namespace Cert.KernelIdeal.Block

open Cert.KernelIdeal Cert.KernelIdeal.Gen Idealize.ShloMosaic Idealize.ShloMosaic.ValueIdx Cert.LibDense

/-! ## The three matrix products as sums -/

/-! ### The record `dot_S256x512_S512x512_S256x512_1_0_0_1_n_n` -/

theorem lhs_gate_0 (i : S256x512.Idx) (q : dot_S256x512_S512x512_S256x512_1_0_0_1_n_n.contr.Idx) :
    (dot_S256x512_S512x512_S256x512_1_0_0_1_n_n.lhsIdx i q 0).val = (i 0).val := by
  unfold DotDims.lhsIdx
  rw [dif_neg (show ¬(0 : Fin S256x512.rank) ∈ dot_S256x512_S512x512_S256x512_1_0_0_1_n_n.lhsBatch by decide), dif_pos (show (0 : Fin S256x512.rank) ∈ dot_S256x512_S512x512_S256x512_1_0_0_1_n_n.lhsNonContracting by decide)]
  rfl
theorem lhs_gate_1 (i : S256x512.Idx) (q : dot_S256x512_S512x512_S256x512_1_0_0_1_n_n.contr.Idx) :
    (dot_S256x512_S512x512_S256x512_1_0_0_1_n_n.lhsIdx i q 1).val = (q ⟨0, by decide⟩).val :=
  dot_S256x512_S512x512_S256x512_1_0_0_1_n_n.lhsIdx_val_of_single rfl i q
theorem rhs_gate_0 (i : S256x512.Idx) (q : dot_S256x512_S512x512_S256x512_1_0_0_1_n_n.contr.Idx) :
    (dot_S256x512_S512x512_S256x512_1_0_0_1_n_n.rhsIdx i q 0).val = (q ⟨0, by decide⟩).val :=
  dot_S256x512_S512x512_S256x512_1_0_0_1_n_n.rhsIdx_val_of_single rfl i q
theorem rhs_gate_1 (i : S256x512.Idx) (q : dot_S256x512_S512x512_S256x512_1_0_0_1_n_n.contr.Idx) :
    (dot_S256x512_S512x512_S256x512_1_0_0_1_n_n.rhsIdx i q 1).val = (i 1).val := by
  unfold DotDims.rhsIdx
  rw [dif_neg (show ¬(1 : Fin S512x512.rank) ∈ dot_S256x512_S512x512_S256x512_1_0_0_1_n_n.rhsBatch by decide), dif_pos (show (1 : Fin S512x512.rank) ∈ dot_S256x512_S512x512_S256x512_1_0_0_1_n_n.rhsNonContracting by decide)]
  rfl

/-- A 256 × 512 block times a 512 × 512 block into zero, at (p, q). -/
theorem mm_gate {φ₁ φ₂ : FTy} (lhs : FVec Ideal S256x512 φ₁) (rhs : FVec Ideal S512x512 φ₂) (p : Fin 256) (q : Fin 512) :
    matmul dot_S256x512_S512x512_S256x512_1_0_0_1_n_n none lhs rhs (constant (F := Ideal) S256x512 .f32 0x00000000#32) (ix2 p q)
      = ∑ k : Fin 512, lhs (ix2 p k) * rhs (ix2 k q) :=
  matmul_zero_apply dot_S256x512_S512x512_S256x512_1_0_0_1_n_n none rfl rfl lhs_gate_0 lhs_gate_1 rhs_gate_0 rhs_gate_1 lhs rhs p q

/-! ### The record `dot_S256x256_S256x2048_S256x2048_1_0_0_1_n_n` -/

theorem lhs_inp_0 (i : S256x2048.Idx) (q : dot_S256x256_S256x2048_S256x2048_1_0_0_1_n_n.contr.Idx) :
    (dot_S256x256_S256x2048_S256x2048_1_0_0_1_n_n.lhsIdx i q 0).val = (i 0).val := by
  unfold DotDims.lhsIdx
  rw [dif_neg (show ¬(0 : Fin S256x256.rank) ∈ dot_S256x256_S256x2048_S256x2048_1_0_0_1_n_n.lhsBatch by decide), dif_pos (show (0 : Fin S256x256.rank) ∈ dot_S256x256_S256x2048_S256x2048_1_0_0_1_n_n.lhsNonContracting by decide)]
  rfl
theorem lhs_inp_1 (i : S256x2048.Idx) (q : dot_S256x256_S256x2048_S256x2048_1_0_0_1_n_n.contr.Idx) :
    (dot_S256x256_S256x2048_S256x2048_1_0_0_1_n_n.lhsIdx i q 1).val = (q ⟨0, by decide⟩).val :=
  dot_S256x256_S256x2048_S256x2048_1_0_0_1_n_n.lhsIdx_val_of_single rfl i q
theorem rhs_inp_0 (i : S256x2048.Idx) (q : dot_S256x256_S256x2048_S256x2048_1_0_0_1_n_n.contr.Idx) :
    (dot_S256x256_S256x2048_S256x2048_1_0_0_1_n_n.rhsIdx i q 0).val = (q ⟨0, by decide⟩).val :=
  dot_S256x256_S256x2048_S256x2048_1_0_0_1_n_n.rhsIdx_val_of_single rfl i q
theorem rhs_inp_1 (i : S256x2048.Idx) (q : dot_S256x256_S256x2048_S256x2048_1_0_0_1_n_n.contr.Idx) :
    (dot_S256x256_S256x2048_S256x2048_1_0_0_1_n_n.rhsIdx i q 1).val = (i 1).val := by
  unfold DotDims.rhsIdx
  rw [dif_neg (show ¬(1 : Fin S256x2048.rank) ∈ dot_S256x256_S256x2048_S256x2048_1_0_0_1_n_n.rhsBatch by decide), dif_pos (show (1 : Fin S256x2048.rank) ∈ dot_S256x256_S256x2048_S256x2048_1_0_0_1_n_n.rhsNonContracting by decide)]
  rfl

/-- A 256 × 256 block times a 256 × 2048 block into zero, at (p, n). -/
theorem mm_inp {φ₁ φ₂ : FTy} (lhs : FVec Ideal S256x256 φ₁) (rhs : FVec Ideal S256x2048 φ₂) (p : Fin 256) (n : Fin 2048) :
    matmul dot_S256x256_S256x2048_S256x2048_1_0_0_1_n_n none lhs rhs (constant (F := Ideal) S256x2048 .f32 0x00000000#32) (ix2 p n)
      = ∑ k : Fin 256, lhs (ix2 p k) * rhs (ix2 k n) :=
  matmul_zero_apply dot_S256x256_S256x2048_S256x2048_1_0_0_1_n_n none rfl rfl lhs_inp_0 lhs_inp_1 rhs_inp_0 rhs_inp_1 lhs rhs p n

/-! ### The record `dot_S256x512_S512x2048_S256x2048_1_0_0_1_n_n` -/

theorem lhs_hid_0 (i : S256x2048.Idx) (q : dot_S256x512_S512x2048_S256x2048_1_0_0_1_n_n.contr.Idx) :
    (dot_S256x512_S512x2048_S256x2048_1_0_0_1_n_n.lhsIdx i q 0).val = (i 0).val := by
  unfold DotDims.lhsIdx
  rw [dif_neg (show ¬(0 : Fin S256x512.rank) ∈ dot_S256x512_S512x2048_S256x2048_1_0_0_1_n_n.lhsBatch by decide), dif_pos (show (0 : Fin S256x512.rank) ∈ dot_S256x512_S512x2048_S256x2048_1_0_0_1_n_n.lhsNonContracting by decide)]
  rfl
theorem lhs_hid_1 (i : S256x2048.Idx) (q : dot_S256x512_S512x2048_S256x2048_1_0_0_1_n_n.contr.Idx) :
    (dot_S256x512_S512x2048_S256x2048_1_0_0_1_n_n.lhsIdx i q 1).val = (q ⟨0, by decide⟩).val :=
  dot_S256x512_S512x2048_S256x2048_1_0_0_1_n_n.lhsIdx_val_of_single rfl i q
theorem rhs_hid_0 (i : S256x2048.Idx) (q : dot_S256x512_S512x2048_S256x2048_1_0_0_1_n_n.contr.Idx) :
    (dot_S256x512_S512x2048_S256x2048_1_0_0_1_n_n.rhsIdx i q 0).val = (q ⟨0, by decide⟩).val :=
  dot_S256x512_S512x2048_S256x2048_1_0_0_1_n_n.rhsIdx_val_of_single rfl i q
theorem rhs_hid_1 (i : S256x2048.Idx) (q : dot_S256x512_S512x2048_S256x2048_1_0_0_1_n_n.contr.Idx) :
    (dot_S256x512_S512x2048_S256x2048_1_0_0_1_n_n.rhsIdx i q 1).val = (i 1).val := by
  unfold DotDims.rhsIdx
  rw [dif_neg (show ¬(1 : Fin S512x2048.rank) ∈ dot_S256x512_S512x2048_S256x2048_1_0_0_1_n_n.rhsBatch by decide), dif_pos (show (1 : Fin S512x2048.rank) ∈ dot_S256x512_S512x2048_S256x2048_1_0_0_1_n_n.rhsNonContracting by decide)]
  rfl

/-- A 256 × 512 block times a 512 × 2048 block into zero, at (p, n). -/
theorem mm_hid {φ₁ φ₂ : FTy} (lhs : FVec Ideal S256x512 φ₁) (rhs : FVec Ideal S512x2048 φ₂) (p : Fin 256) (n : Fin 2048) :
    matmul dot_S256x512_S512x2048_S256x2048_1_0_0_1_n_n none lhs rhs (constant (F := Ideal) S256x2048 .f32 0x00000000#32) (ix2 p n)
      = ∑ k : Fin 512, lhs (ix2 p k) * rhs (ix2 k n) :=
  matmul_zero_apply dot_S256x512_S512x2048_S256x2048_1_0_0_1_n_n none rfl rfl lhs_hid_0 lhs_hid_1 rhs_hid_0 rhs_hid_1 lhs rhs p n

/-! ## The two biases as rows -/

/-- A 512-vector laid as a row and repeated down 256 rows, at (p, q): the vector at q. -/
theorem bias512 (v : Vec Ideal S512 .f32) (p : Fin 256) (q : Fin 512) :
    broadcastTo S256x512 (shapeCast S1x512 v shapeCasts_S512_S1x512) broadcasts_S1x512_S256x512 (ix2 p q) = v (ix1 q) :=
  bias_row_apply v _ _ p q

/-- A 2048-vector laid as a row and repeated down 256 rows, at (p, n): the vector at n. -/
theorem bias2048 (v : Vec Ideal S2048 .f32) (p : Fin 256) (n : Fin 2048) :
    broadcastTo S256x2048 (shapeCast S1x2048 v shapeCasts_S2048_S1x2048) broadcasts_S1x2048_S256x2048 (ix2 p n) = v (ix1 n) :=
  bias_row_apply v _ _ p n

/-! ## The three values at an index -/

/-- The gated cell state of the block at (p, q). -/
theorem cell_apply (v0 v1 : Vec Ideal S256x512 .f32) (v4 v6 : Vec Ideal S512x512 .bf16) (v15 : Vec Ideal S512 .f32)
    (v28 : Vec Ideal S256x512 .f32) (p : Fin 256) (q : Fin 512) :
    k0_pay6 v0 v1 v4 v6 v15 v28 (ix2 p q)
      = v28 (ix2 p q) * Ideal.logistic
          ((∑ k : Fin 512, v0 (ix2 p k) * v4 (ix2 k q) + ∑ k : Fin 512, v1 (ix2 p k) * v6 (ix2 k q)) + v15 (ix1 q)) := by
  unfold k0_pay6 k0_pay4 k0_pay5
  simp only [mulf_apply, addf_apply, logistic_apply, mm_gate, truncf_apply, shapeCast_self]
  rw [bias512]

/-- The gated hidden state of the block at (p, q). -/
theorem hidden_apply (v0 v1 : Vec Ideal S256x512 .f32) (v8 v10 : Vec Ideal S512x512 .bf16) (v22 : Vec Ideal S512 .f32)
    (v30 : Vec Ideal S256x512 .f32) (p : Fin 256) (q : Fin 512) :
    k0_pay7 v0 v1 v8 v10 v22 v30 (ix2 p q)
      = v30 (ix2 p q) * Ideal.logistic
          ((∑ k : Fin 512, v0 (ix2 p k) * v8 (ix2 k q) + ∑ k : Fin 512, v1 (ix2 p k) * v10 (ix2 k q)) + v22 (ix1 q)) := by
  unfold k0_pay7 k0_pay4 k0_pay5
  simp only [mulf_apply, addf_apply, logistic_apply, mm_gate, truncf_apply, shapeCast_self]
  rw [bias512]

/-- The pre-activations of the block at (p, n). -/
theorem gates_apply (v32 : FVec Ideal S256x512 .bf16) (v34 : FVec Ideal S256x256 .bf16) (v35 : Vec Ideal S256x2048 .bf16)
    (v37 : Vec Ideal S512x2048 .bf16) (v40 v46 : Vec Ideal S2048 .f32) (p : Fin 256) (n : Fin 2048) :
    k0_pay1 v32 v34 v35 v37 v40 v46 (ix2 p n)
      = ((∑ k : Fin 256, v34 (ix2 p k) * v35 (ix2 k n) + v40 (ix1 n)) + ∑ k : Fin 512, v32 (ix2 p k) * v37 (ix2 k n))
          + v46 (ix1 n) := by
  unfold k0_pay1
  simp only [addf_apply, mm_inp, mm_hid, shapeCast_self]
  rw [bias2048, bias2048]

end Cert.KernelIdeal.Block

end
-- ==== Proof.CellSpec.lean ====
/-
  The cell, as one function of its thirteen argument arrays.

  A row s of the batch carries an input x[s, ·] (256 wide) and four hidden vectors hs, cs, ha, hb (512 wide).
  Two spatial gates are linear in the concatenation [ha | hb] (1024 wide):

      logit W b s j = Σ_{k<1024} [ha | hb][s, k] · W[j, k] + b[j]
                    = (Σ_{k<512} ha[s, k] · W[j, k] + Σ_{k<512} hb[s, k] · W[j, 512 + k]) + b[j],

  and scale the carried state:  c[s, j] = cs[s, j] · σ(logit Wsf bsf s j),  h[s, j] = hs[s, j] · σ(logit Wsi bsi s j),
  with σ(z) = 1 / (1 + e^(-z)). The LSTM step then forms 2048 pre-activations

      gates[s, n] = ((Σ_{k<256} x[s, k] · Wih[n, k] + bih[n]) + Σ_{k<512} h[s, k] · Whh[n, k]) + bhh[n],

  cut into four quarters i | f | g | o of 512 each, and

      c'[s, j] = σ(f[s, j]) · c[s, j] + σ(i[s, j]) · tanh(g[s, j]),      h'[s, j] = σ(o[s, j]) · tanh(c'[s, j]).

  Everything is read on the extended reals, where sums and products are the exact ones. The only law used between
  the two spellings of the logit is that a sum over 1024 terms is the sum of its two halves, which holds in any
  commutative monoid, so no finiteness is asked of the inputs.
-/
import Idealize.ShloMosaic.Lib.ValueIdx
import Idealize.ShloMosaic.PureOps.Ideal
import Mathlib.Algebra.BigOperators.Fin

noncomputable section

namespace Cert.CellSpec

open Idealize.ShloMosaic Idealize.ShloMosaic.ValueIdx

/-- A matrix of extended reals with `r` rows and `c` columns. -/
abbrev Mat (r c : ℕ) := (⟨2, ![r, c]⟩ : Shape).Idx → EReal
/-- A vector of extended reals of length `n`. -/
abbrev Vc (n : ℕ) := (⟨1, ![n]⟩ : Shape).Idx → EReal

/-! ## Positions in the concatenated axis and in the four quarters of the gates -/

/-- Position k of the first half of the 1024-wide concatenation. -/
abbrev lo (k : Fin 512) : Fin 1024 := ⟨k.val, by omega⟩
/-- Position k of the second half of the 1024-wide concatenation. -/
abbrev hi (k : Fin 512) : Fin 1024 := ⟨512 + k.val, by omega⟩
/-- Column j of quarter q (0 ≤ q < 4) of the 2048 pre-activations. -/
abbrev quarter (q : Fin 4) (j : Fin 512) : Fin 2048 := ⟨q.val * 512 + j.val, by omega⟩

/-- A sum over the concatenated axis is the sum over its first half plus the sum over its second half. -/
theorem sum_halves {M : Type*} [AddCommMonoid M] (f : Fin 1024 → M) :
    ∑ k : Fin 1024, f k = ∑ k : Fin 512, f (lo k) + ∑ k : Fin 512, f (hi k) :=
  Fin.sum_univ_add (a := 512) (b := 512) f

/-! ## The thirteen arguments -/

/-- The arguments of the cell, by the names the mathematics gives them. -/
structure Args where
  x : Mat 16384 256
  hs : Mat 16384 512
  cs : Mat 16384 512
  ha : Mat 16384 512
  hb : Mat 16384 512
  Wsf : Mat 512 1024
  bsf : Vc 512
  Wsi : Mat 512 1024
  bsi : Vc 512
  Wih : Mat 2048 256
  bih : Vc 2048
  Whh : Mat 2048 512
  bhh : Vc 2048

/-! ## The cell, entry by entry -/

/-- A spatial gate's logit at row s, column j: the two halves of the contraction with W's row j, then the bias. -/
def logit (ha hb : Mat 16384 512) (W : Mat 512 1024) (b : Vc 512) (s : Fin 16384) (j : Fin 512) : EReal :=
  (∑ k : Fin 512, ha (ix2 s k) * W (ix2 j (lo k)) + ∑ k : Fin 512, hb (ix2 s k) * W (ix2 j (hi k))) + b (ix1 j)

variable (a : Args)

/-- The gated cell state c[s, j]. -/
def cGate (s : Fin 16384) (j : Fin 512) : EReal := a.cs (ix2 s j) * Ideal.logistic (logit a.ha a.hb a.Wsf a.bsf s j)

/-- The gated hidden state h[s, j]. -/
def hGate (s : Fin 16384) (j : Fin 512) : EReal := a.hs (ix2 s j) * Ideal.logistic (logit a.ha a.hb a.Wsi a.bsi s j)

/-- The pre-activation gates[s, n]. -/
def gates (s : Fin 16384) (n : Fin 2048) : EReal :=
  ((∑ k : Fin 256, a.x (ix2 s k) * a.Wih (ix2 n k) + a.bih (ix1 n)) + ∑ k : Fin 512, hGate a s k * a.Whh (ix2 n k))
    + a.bhh (ix1 n)

/-- The new cell state c'[s, j]. -/
def cNew (s : Fin 16384) (j : Fin 512) : EReal :=
  Ideal.logistic (gates a s (quarter 1 j)) * cGate a s j
    + Ideal.logistic (gates a s (quarter 0 j)) * Ideal.tanh (gates a s (quarter 2 j))

/-- The new hidden state h'[s, j]. -/
def hNew (s : Fin 16384) (j : Fin 512) : EReal :=
  Ideal.logistic (gates a s (quarter 3 j)) * Ideal.tanh (cNew a s j)

/-- The new cell state as an array. -/
def CNew : Mat 16384 512 := fun i => cNew a (i 0) (i 1)

/-- The new hidden state as an array. -/
def HNew : Mat 16384 512 := fun i => hNew a (i 0) (i 1)

theorem CNew_ix2 (s : Fin 16384) (j : Fin 512) : CNew a (ix2 s j) = cNew a s j := rfl
theorem HNew_ix2 (s : Fin 16384) (j : Fin 512) : HNew a (ix2 s j) = hNew a s j := rfl

end Cert.CellSpec

end
-- ==== Proof.KernelPoint.lean ====
/-
  One grid point: the two output blocks, entry by entry, as the cell of the argument arrays.

  At a grid point the body sees a block of 256 rows of each row-blocked array (x, hs, cs, ha, hb) and the whole of
  each weight array, already split, transposed and narrowed by the host: the two halves of Wsf and of Wsi as
  512 × 512 blocks with A[k, j] = W[j, k] and B[k, j] = W[j, 512 + k], and Wih, Whh transposed. Suppose row p of each
  row block is row s of its array. Then the block written to the first output is h'[s, ·] at row p, and the block
  written to the second is c'[s, ·]: the gated states and the pre-activations are the three values the body's block
  lemmas read, and the four quarters of the pre-activations are read at columns q, 512 + q, 1024 + q, 1536 + q.
-/
import proofs.«171903_j83700322664663_1_alg».proof.Proof.Gen.KernelIdeal.Value
import proofs.«171903_j83700322664663_1_alg».proof.Proof.KernelBlock
import proofs.«171903_j83700322664663_1_alg».proof.Proof.CellSpec

noncomputable section

namespace Cert.KernelIdeal.Point

open Cert.KernelIdeal Cert.KernelIdeal.Gen Cert.KernelIdeal.Value Cert.KernelIdeal.Block Cert.CellSpec Cert.LibDense
open Idealize.ShloMosaic Idealize.ShloMosaic.ValueIdx

theorem hz2 : (![0, 0] : Fin 2 → ℕ) = fun _ => 0 := funext fun a => match a with | ⟨0, _⟩ => rfl | ⟨1, _⟩ => rfl
theorem hz1 : (![0] : Fin 1 → ℕ) = fun _ => 0 := funext fun a => match a with | ⟨0, _⟩ => rfl

/-! ## Where the body's slices read the pre-activations -/

theorem ix15_0_eq (p : Fin 256) (q : Fin 512) : ix15_0 (ix2 p q) = ix2 p (quarter 3 q) :=
  funext fun ax => Fin.ext (by match ax with | ⟨0, _⟩ => rfl | ⟨1, _⟩ => show q.val + 1536 = 3 * 512 + q.val; omega)
theorem ix15_1_eq (p : Fin 256) (q : Fin 512) : ix15_1 (ix2 p q) = ix2 p (quarter 1 q) :=
  funext fun ax => Fin.ext (by match ax with | ⟨0, _⟩ => rfl | ⟨1, _⟩ => show q.val + 512 = 1 * 512 + q.val; omega)
theorem ix15_2_eq (p : Fin 256) (q : Fin 512) : ix15_2 (ix2 p q) = ix2 p q :=
  funext fun ax => Fin.ext (by match ax with | ⟨0, _⟩ => rfl | ⟨1, _⟩ => rfl)
theorem ix15_3_eq (p : Fin 256) (q : Fin 512) : ix15_3 (ix2 p q) = ix2 p (quarter 0 q) :=
  funext fun ax => Fin.ext (by match ax with | ⟨0, _⟩ => rfl | ⟨1, _⟩ => show q.val = 0 * 512 + q.val; omega)
theorem ix15_4_eq (p : Fin 256) (q : Fin 512) : ix15_4 (ix2 p q) = ix2 p (quarter 2 q) :=
  funext fun ax => Fin.ext (by match ax with | ⟨0, _⟩ => rfl | ⟨1, _⟩ => show q.val + 1024 = 2 * 512 + q.val; omega)
theorem ix16_0_eq (p : Fin 256) (q : Fin 512) : ix16_0 (ix2 p q) = ix2 p (quarter 1 q) :=
  funext fun ax => Fin.ext (by match ax with | ⟨0, _⟩ => rfl | ⟨1, _⟩ => show q.val + 512 = 1 * 512 + q.val; omega)
theorem ix16_1_eq (p : Fin 256) (q : Fin 512) : ix16_1 (ix2 p q) = ix2 p q :=
  funext fun ax => Fin.ext (by match ax with | ⟨0, _⟩ => rfl | ⟨1, _⟩ => rfl)
theorem ix16_2_eq (p : Fin 256) (q : Fin 512) : ix16_2 (ix2 p q) = ix2 p (quarter 0 q) :=
  funext fun ax => Fin.ext (by match ax with | ⟨0, _⟩ => rfl | ⟨1, _⟩ => show q.val = 0 * 512 + q.val; omega)
theorem ix16_3_eq (p : Fin 256) (q : Fin 512) : ix16_3 (ix2 p q) = ix2 p (quarter 2 q) :=
  funext fun ax => Fin.ext (by match ax with | ⟨0, _⟩ => rfl | ⟨1, _⟩ => show q.val + 1024 = 2 * 512 + q.val; omega)

/-! ## The blocks of a point against the arrays -/

variable (a : Args) (s : Fin 16384) (p : Fin 256)
  (x0 : Vec Ideal S256x256 .f32) (x1 x2 x3 x4 : Vec Ideal S256x512 .f32) (x5 x6 : Vec Ideal S512x512 .bf16)
  (x7 : Vec Ideal S512 .f32) (x8 x9 : Vec Ideal S512x512 .bf16) (x10 : Vec Ideal S512 .f32)
  (x11 : Vec Ideal S256x2048 .bf16) (x12 : Vec Ideal S2048 .f32) (x13 : Vec Ideal S512x2048 .bf16) (x14 : Vec Ideal S2048 .f32)

/-- Row p of each row block is row s of its array, and each weight block is its array as the host re-laid it. -/
structure Reads : Prop where
  h0 : ∀ k : Fin 256, x0 (ix2 p k) = a.x (ix2 s k)
  h1 : ∀ k : Fin 512, x1 (ix2 p k) = a.hs (ix2 s k)
  h2 : ∀ k : Fin 512, x2 (ix2 p k) = a.cs (ix2 s k)
  h3 : ∀ k : Fin 512, x3 (ix2 p k) = a.ha (ix2 s k)
  h4 : ∀ k : Fin 512, x4 (ix2 p k) = a.hb (ix2 s k)
  h5 : ∀ k j : Fin 512, x5 (ix2 k j) = a.Wsf (ix2 j (lo k))
  h6 : ∀ k j : Fin 512, x6 (ix2 k j) = a.Wsf (ix2 j (hi k))
  h7 : ∀ j : Fin 512, x7 (ix1 j) = a.bsf (ix1 j)
  h8 : ∀ k j : Fin 512, x8 (ix2 k j) = a.Wsi (ix2 j (lo k))
  h9 : ∀ k j : Fin 512, x9 (ix2 k j) = a.Wsi (ix2 j (hi k))
  h10 : ∀ j : Fin 512, x10 (ix1 j) = a.bsi (ix1 j)
  h11 : ∀ (k : Fin 256) (n : Fin 2048), x11 (ix2 k n) = a.Wih (ix2 n k)
  h12 : ∀ n : Fin 2048, x12 (ix1 n) = a.bih (ix1 n)
  h13 : ∀ (k : Fin 512) (n : Fin 2048), x13 (ix2 k n) = a.Whh (ix2 n k)
  h14 : ∀ n : Fin 2048, x14 (ix1 n) = a.bhh (ix1 n)

variable {a s p x0 x1 x2 x3 x4 x5 x6 x7 x8 x9 x10 x11 x12 x13 x14}
variable (h : Reads a s p x0 x1 x2 x3 x4 x5 x6 x7 x8 x9 x10 x11 x12 x13 x14)
include h

/-- The block's gated cell state at (p, j) is c[s, j]. -/
theorem cell_eq (j : Fin 512) : k0_pay6 x3 x4 x5 x6 x7 x2 (ix2 p j) = cGate a s j := by
  rw [cell_apply]
  simp only [h.h2, h.h3, h.h4, h.h5, h.h6, h.h7]
  rfl

/-- The block's gated hidden state at (p, j) is h[s, j]. -/
theorem hidden_eq (j : Fin 512) : k0_pay7 x3 x4 x8 x9 x10 x1 (ix2 p j) = hGate a s j := by
  rw [hidden_apply]
  simp only [h.h1, h.h3, h.h4, h.h8, h.h9, h.h10]
  rfl

/-- The block's pre-activations at (p, n) are gates[s, n]. -/
theorem gates_eq (n : Fin 2048) : k0_pay1 (k0_pay7 x3 x4 x8 x9 x10 x1) (truncf .bf16 x0 bitsLt_bf16_f32) x11 x13 x12 x14 (ix2 p n) = gates a s n := by
  rw [gates_apply]
  simp only [truncf_apply, h.h0, h.h11, h.h12, h.h13, h.h14, hidden_eq h]
  rfl

/-- The block written to the first output, at (p, q), is h'[s, q]. -/
theorem hNew_block (q : Fin 512) : out0_15 x0 x1 x2 x3 x4 x5 x6 x7 x8 x9 x10 x11 x12 x13 x14 (ix2 p q) = hNew a s q := by
  unfold out0_15
  refine (canon15_eq (View.ld x3 r0_0) (View.ld x4 r0_0) (View.ld x8 r0_1) (View.ld x9 r0_1) (View.ld x10 r0_2) (View.ld x1 r0_0) (View.ld x0 r0_3) (View.ld x11 r0_4) (View.ld x13 r0_5) (View.ld x12 r0_6) (View.ld x14 r0_6) (View.ld x5 r0_1) (View.ld x6 r0_1) (View.ld x7 r0_2) (View.ld x2 r0_0) (ix2 p q)).trans ?_
  simp only [View.ld_unit_zero (S := S256x256) hz2, View.ld_unit_zero (S := S256x512) hz2, View.ld_unit_zero (S := S512x512) hz2,
    View.ld_unit_zero (S := S256x2048) hz2, View.ld_unit_zero (S := S512x2048) hz2, View.ld_unit_zero (S := S512) hz1,
    View.ld_unit_zero (S := S2048) hz1]
  show Ideal.logistic (k0_pay1 (k0_pay7 x3 x4 x8 x9 x10 x1) (truncf .bf16 x0 bitsLt_bf16_f32) x11 x13 x12 x14 (ix15_0 (ix2 p q))) * Ideal.tanh
      (Ideal.logistic (k0_pay1 (k0_pay7 x3 x4 x8 x9 x10 x1) (truncf .bf16 x0 bitsLt_bf16_f32) x11 x13 x12 x14 (ix15_1 (ix2 p q))) * k0_pay6 x3 x4 x5 x6 x7 x2 (ix15_2 (ix2 p q))
        + Ideal.logistic (k0_pay1 (k0_pay7 x3 x4 x8 x9 x10 x1) (truncf .bf16 x0 bitsLt_bf16_f32) x11 x13 x12 x14 (ix15_3 (ix2 p q))) * Ideal.tanh (k0_pay1 (k0_pay7 x3 x4 x8 x9 x10 x1) (truncf .bf16 x0 bitsLt_bf16_f32) x11 x13 x12 x14 (ix15_4 (ix2 p q)))) = _
  rw [ix15_0_eq, ix15_1_eq, ix15_2_eq, ix15_3_eq, ix15_4_eq, gates_eq h, gates_eq h, gates_eq h, gates_eq h, cell_eq h]
  rfl

/-- The block written to the second output, at (p, q), is c'[s, q]. -/
theorem cNew_block (q : Fin 512) : out0_16 x0 x1 x2 x3 x4 x5 x6 x7 x8 x9 x10 x11 x12 x13 x14 (ix2 p q) = cNew a s q := by
  unfold out0_16
  refine (canon16_eq (View.ld x3 r0_0) (View.ld x4 r0_0) (View.ld x8 r0_1) (View.ld x9 r0_1) (View.ld x10 r0_2) (View.ld x1 r0_0) (View.ld x0 r0_3) (View.ld x11 r0_4) (View.ld x13 r0_5) (View.ld x12 r0_6) (View.ld x14 r0_6) (View.ld x5 r0_1) (View.ld x6 r0_1) (View.ld x7 r0_2) (View.ld x2 r0_0) (ix2 p q)).trans ?_
  simp only [View.ld_unit_zero (S := S256x256) hz2, View.ld_unit_zero (S := S256x512) hz2, View.ld_unit_zero (S := S512x512) hz2,
    View.ld_unit_zero (S := S256x2048) hz2, View.ld_unit_zero (S := S512x2048) hz2, View.ld_unit_zero (S := S512) hz1,
    View.ld_unit_zero (S := S2048) hz1]
  show Ideal.logistic (k0_pay1 (k0_pay7 x3 x4 x8 x9 x10 x1) (truncf .bf16 x0 bitsLt_bf16_f32) x11 x13 x12 x14 (ix16_0 (ix2 p q))) * k0_pay6 x3 x4 x5 x6 x7 x2 (ix16_1 (ix2 p q))
        + Ideal.logistic (k0_pay1 (k0_pay7 x3 x4 x8 x9 x10 x1) (truncf .bf16 x0 bitsLt_bf16_f32) x11 x13 x12 x14 (ix16_2 (ix2 p q))) * Ideal.tanh (k0_pay1 (k0_pay7 x3 x4 x8 x9 x10 x1) (truncf .bf16 x0 bitsLt_bf16_f32) x11 x13 x12 x14 (ix16_3 (ix2 p q))) = _
  rw [ix16_0_eq, ix16_1_eq, ix16_2_eq, ix16_3_eq, gates_eq h, gates_eq h, gates_eq h, cell_eq h]
  rfl

end Cert.KernelIdeal.Point

end
-- ==== Proof.KernelHost.lean ====
/-
  The weights as the region finds them.

  Before the region the host cuts each spatial gate's 512 × 1024 weight matrix W into its two 512 × 512 halves,
  transposes each and narrows it: the region's block A has A[k, j] = W[j, k] and its block B has B[k, j] = W[j, 512 + k].
  The LSTM matrices are transposed and narrowed whole: U[k, n] = Wih[n, k] and R[k, n] = Whh[n, k]. On the extended
  reals the narrowing is the identity.
-/
import proofs.«171903_j83700322664663_1_alg».proof.Proof.Gen.KernelIdeal.Frame
import proofs.«171903_j83700322664663_1_alg».proof.Proof.CellSpec
import Idealize.ShloMosaic.Lib.ValueLayout
import Idealize.ShloMosaic.Lib.StableHlo.Run

noncomputable section

namespace Cert.KernelIdeal.Host

open Cert.KernelIdeal Cert.KernelIdeal.Gen Cert.CellSpec
open Idealize.ShloMosaic Idealize.ShloMosaic.TcCoe Idealize.ShloMosaic.ValueIdx Idealize.ShloMosaic.StableHlo Idealize.SL.Sem

variable (m : (ℓ : Loc nD τ sig) → Buf (Elt Ideal) ℓ)

/-- The first half of Wsf, transposed. -/
theorem wsfa_eq (c : Dev nD) : (V m c main_v2 : S512x512.Idx → EReal)
    = (truncf (F := Ideal) .bf16 (transpose S512x512 [1, 0] (extractStridedSlice S512x512 ![0, 0] (m ((c : Thread nD τ).loc main_arg5)) slices_S512x1024_S512x512_0_0)
        transposes_S512x512_S512x512_1_0) bitsLt_bf16_f32 : S512x512.Idx → EReal) := by
  dsimp only [Gen.V, Gen.hostOps0]; after_results

theorem wsfa_apply (c : Dev nD) (k j : Fin 512) : V m c main_v2 (ix2 k j) = (m ((c : Thread nD τ).loc main_arg5)) (ix2 j (lo k)) :=
  (((congrFun (wsfa_eq m c) (ix2 k j)).trans (truncf_apply _ bitsLt_bf16_f32 (ix2 k j))).trans
    (transpose_ix2_apply _ transposes_S512x512_S512x512_1_0 k j)).trans
    (slice2_axis1_apply 0 _ slices_S512x1024_S512x512_0_0 j k (lo k) (Nat.zero_add _).symm)

/-- The second half of Wsf, transposed. -/
theorem wsfb_eq (c : Dev nD) : (V m c main_v5 : S512x512.Idx → EReal)
    = (truncf (F := Ideal) .bf16 (transpose S512x512 [1, 0] (extractStridedSlice S512x512 ![0, 512] (m ((c : Thread nD τ).loc main_arg5)) slices_S512x1024_S512x512_0_512)
        transposes_S512x512_S512x512_1_0) bitsLt_bf16_f32 : S512x512.Idx → EReal) := by
  dsimp only [Gen.V, Gen.hostOps0]; after_results

theorem wsfb_apply (c : Dev nD) (k j : Fin 512) : V m c main_v5 (ix2 k j) = (m ((c : Thread nD τ).loc main_arg5)) (ix2 j (hi k)) :=
  (((congrFun (wsfb_eq m c) (ix2 k j)).trans (truncf_apply _ bitsLt_bf16_f32 (ix2 k j))).trans
    (transpose_ix2_apply _ transposes_S512x512_S512x512_1_0 k j)).trans
    (slice2_axis1_apply 512 _ slices_S512x1024_S512x512_0_512 j k (hi k) rfl)

/-- The first half of Wsi, transposed. -/
theorem wsia_eq (c : Dev nD) : (V m c main_v8 : S512x512.Idx → EReal)
    = (truncf (F := Ideal) .bf16 (transpose S512x512 [1, 0] (extractStridedSlice S512x512 ![0, 0] (m ((c : Thread nD τ).loc main_arg7)) slices_S512x1024_S512x512_0_0)
        transposes_S512x512_S512x512_1_0) bitsLt_bf16_f32 : S512x512.Idx → EReal) := by
  dsimp only [Gen.V, Gen.hostOps0]; after_results

theorem wsia_apply (c : Dev nD) (k j : Fin 512) : V m c main_v8 (ix2 k j) = (m ((c : Thread nD τ).loc main_arg7)) (ix2 j (lo k)) :=
  (((congrFun (wsia_eq m c) (ix2 k j)).trans (truncf_apply _ bitsLt_bf16_f32 (ix2 k j))).trans
    (transpose_ix2_apply _ transposes_S512x512_S512x512_1_0 k j)).trans
    (slice2_axis1_apply 0 _ slices_S512x1024_S512x512_0_0 j k (lo k) (Nat.zero_add _).symm)

/-- The second half of Wsi, transposed. -/
theorem wsib_eq (c : Dev nD) : (V m c main_v11 : S512x512.Idx → EReal)
    = (truncf (F := Ideal) .bf16 (transpose S512x512 [1, 0] (extractStridedSlice S512x512 ![0, 512] (m ((c : Thread nD τ).loc main_arg7)) slices_S512x1024_S512x512_0_512)
        transposes_S512x512_S512x512_1_0) bitsLt_bf16_f32 : S512x512.Idx → EReal) := by
  dsimp only [Gen.V, Gen.hostOps0]; after_results

theorem wsib_apply (c : Dev nD) (k j : Fin 512) : V m c main_v11 (ix2 k j) = (m ((c : Thread nD τ).loc main_arg7)) (ix2 j (hi k)) :=
  (((congrFun (wsib_eq m c) (ix2 k j)).trans (truncf_apply _ bitsLt_bf16_f32 (ix2 k j))).trans
    (transpose_ix2_apply _ transposes_S512x512_S512x512_1_0 k j)).trans
    (slice2_axis1_apply 512 _ slices_S512x1024_S512x512_0_512 j k (hi k) rfl)

/-- Wih, transposed. -/
theorem wih_eq (c : Dev nD) : (V m c main_v13 : S256x2048.Idx → EReal)
    = (truncf (F := Ideal) .bf16 (transpose S256x2048 [1, 0] (m ((c : Thread nD τ).loc main_arg9)) transposes_S2048x256_S256x2048_1_0) bitsLt_bf16_f32 : S256x2048.Idx → EReal) := by
  dsimp only [Gen.V, Gen.hostOps0]; after_results

theorem wih_apply (c : Dev nD) (k : Fin 256) (n : Fin 2048) : V m c main_v13 (ix2 k n) = (m ((c : Thread nD τ).loc main_arg9)) (ix2 n k) :=
  ((congrFun (wih_eq m c) (ix2 k n)).trans (truncf_apply _ bitsLt_bf16_f32 (ix2 k n))).trans
    (transpose_ix2_apply _ transposes_S2048x256_S256x2048_1_0 k n)

/-- Whh, transposed. -/
theorem whh_eq (c : Dev nD) : (V m c main_v15 : S512x2048.Idx → EReal)
    = (truncf (F := Ideal) .bf16 (transpose S512x2048 [1, 0] (m ((c : Thread nD τ).loc main_arg11)) transposes_S2048x512_S512x2048_1_0) bitsLt_bf16_f32 : S512x2048.Idx → EReal) := by
  dsimp only [Gen.V, Gen.hostOps0]; after_results

theorem whh_apply (c : Dev nD) (k : Fin 512) (n : Fin 2048) : V m c main_v15 (ix2 k n) = (m ((c : Thread nD τ).loc main_arg11)) (ix2 n k) :=
  ((congrFun (whh_eq m c) (ix2 k n)).trans (truncf_apply _ bitsLt_bf16_f32 (ix2 k n))).trans
    (transpose_ix2_apply _ transposes_S2048x512_S512x2048_1_0 k n)

end Cert.KernelIdeal.Host

end
-- ==== Proof.KernelWhole.lean ====
/-
  From the blocks to the arrays.

  The grid has 64 points; point t takes rows 256 t … 256 t + 255 of each row-blocked array and of both outputs, and the
  whole of every weight and bias array. So row p of a point's row blocks is row 256 t + p of the arrays, the point
  writes back rows 256 t … 256 t + 255 of h' and of c', and the 64 blocks tile all 16384 rows: after the run the first
  output array is h' and the second is c', as functions of the argument arrays.
-/
import proofs.«171903_j83700322664663_1_alg».proof.Proof.Gen.KernelIdeal.Value
import proofs.«171903_j83700322664663_1_alg».proof.Proof.KernelPoint
import proofs.«171903_j83700322664663_1_alg».proof.Proof.KernelHost

set_option maxRecDepth 16384

noncomputable section

namespace Cert.KernelIdeal.Whole

open Cert.KernelIdeal Cert.KernelIdeal.Gen Cert.KernelIdeal.Value Cert.KernelIdeal.Point Cert.KernelIdeal.Host Cert.CellSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The kernel's argument arrays on core c, by position, as the cell's arguments. -/
abbrev args (c : Dev nD) : Args :=
  ⟨m ((c : Thread nD τ).loc main_arg0),
   m ((c : Thread nD τ).loc main_arg1),
   m ((c : Thread nD τ).loc main_arg2),
   m ((c : Thread nD τ).loc main_arg3),
   m ((c : Thread nD τ).loc main_arg4),
   m ((c : Thread nD τ).loc main_arg5),
   m ((c : Thread nD τ).loc main_arg6),
   m ((c : Thread nD τ).loc main_arg7),
   m ((c : Thread nD τ).loc main_arg8),
   m ((c : Thread nD τ).loc main_arg9),
   m ((c : Thread nD τ).loc main_arg10),
   m ((c : Thread nD τ).loc main_arg11),
   m ((c : Thread nD τ).loc main_arg12)⟩

/-- The index maps, decided over the 64 points: the row-blocked windows move with the first output along the rows and
    stay at column block 0; the weight and bias windows stay at block 0. -/
theorem idx_facts : ∀ t : Fin cfg0.N,
    win0_0.index t (0 : Fin 2) = win0_15.index t (0 : Fin 2)
    ∧ win0_0.index t (1 : Fin 2) = 0
    ∧ win0_1.index t (0 : Fin 2) = win0_15.index t (0 : Fin 2)
    ∧ win0_1.index t (1 : Fin 2) = 0
    ∧ win0_2.index t (0 : Fin 2) = win0_15.index t (0 : Fin 2)
    ∧ win0_2.index t (1 : Fin 2) = 0
    ∧ win0_3.index t (0 : Fin 2) = win0_15.index t (0 : Fin 2)
    ∧ win0_3.index t (1 : Fin 2) = 0
    ∧ win0_4.index t (0 : Fin 2) = win0_15.index t (0 : Fin 2)
    ∧ win0_4.index t (1 : Fin 2) = 0
    ∧ win0_16.index t (0 : Fin 2) = win0_15.index t (0 : Fin 2)
    ∧ win0_16.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_11.index t (0 : Fin 2) = 0
    ∧ win0_11.index t (1 : Fin 2) = 0
    ∧ win0_13.index t (0 : Fin 2) = 0
    ∧ win0_13.index t (1 : Fin 2) = 0
    ∧ win0_7.index t (0 : Fin 1) = 0
    ∧ win0_10.index t (0 : Fin 1) = 0
    ∧ win0_12.index t (0 : Fin 1) = 0
    ∧ win0_14.index t (0 : Fin 1) = 0
    ∧ win0_15.index t (1 : Fin 2) = 0
    ∧ win0_15.index t (0 : Fin 2) ≤ 63 :=
  (by decide +kernel : ∀ t : Fin grid0.N, _)

/-- Every row block is some point's. -/
theorem idx_onto : ∀ q0 : Fin 64, ∃ t : Fin cfg0.N, win0_15.index t (0 : Fin 2) = q0.val :=
  (by decide +kernel : ∀ q0 : Fin 64, ∃ t : Fin grid0.N, win0_15.index t (0 : Fin 2) = q0.val)

/-! ## Each window's block at a point, read against its array -/

theorem read0 (c : Dev nD) (t : Fin cfg0.N) (p : Fin 256) (s : Fin 16384)
    (hs : s.val = win0_15.index t (0 : Fin 2) * 256 + p.val) (k : Fin 256) :
    iblk m c 0 t (ix2 p k) = m ((c : Thread nD τ).loc main_arg0) (ix2 s k) := by
  obtain ⟨r0a, r0b, r1a, r1b, r2a, r2b, r3a, r3b, r4a, r4b, r16a, r16b, w5a, w5b, w6a, w6b, w8a, w8b, w9a, w9b, w11a, w11b, w13a, w13b, v7, v10, v12, v14, o15b, o15le⟩ := idx_facts t
  show V m c main_arg0 (((cfg0.win 0).blk t).view.emb (ix2 p k)) = m ((c : Thread nD τ).loc main_arg0) (ix2 s k)
  refine (congrFun (V_main_arg0 m c) _).trans (congrArg _ (funext fun ax => Fin.ext ?_))
  match ax with
  | ⟨0, _⟩ => show win0_0.index t (0 : Fin 2) * 256 + 1 * p.val = s.val; omega
  | ⟨1, _⟩ => show win0_0.index t (1 : Fin 2) * 256 + 1 * k.val = k.val; omega

theorem read1 (c : Dev nD) (t : Fin cfg0.N) (p : Fin 256) (s : Fin 16384)
    (hs : s.val = win0_15.index t (0 : Fin 2) * 256 + p.val) (k : Fin 512) :
    iblk m c 1 t (ix2 p k) = m ((c : Thread nD τ).loc main_arg1) (ix2 s k) := by
  obtain ⟨r0a, r0b, r1a, r1b, r2a, r2b, r3a, r3b, r4a, r4b, r16a, r16b, w5a, w5b, w6a, w6b, w8a, w8b, w9a, w9b, w11a, w11b, w13a, w13b, v7, v10, v12, v14, o15b, o15le⟩ := idx_facts t
  show V m c main_arg1 (((cfg0.win 1).blk t).view.emb (ix2 p k)) = m ((c : Thread nD τ).loc main_arg1) (ix2 s k)
  refine (congrFun (V_main_arg1 m c) _).trans (congrArg _ (funext fun ax => Fin.ext ?_))
  match ax with
  | ⟨0, _⟩ => show win0_1.index t (0 : Fin 2) * 256 + 1 * p.val = s.val; omega
  | ⟨1, _⟩ => show win0_1.index t (1 : Fin 2) * 512 + 1 * k.val = k.val; omega

theorem read2 (c : Dev nD) (t : Fin cfg0.N) (p : Fin 256) (s : Fin 16384)
    (hs : s.val = win0_15.index t (0 : Fin 2) * 256 + p.val) (k : Fin 512) :
    iblk m c 2 t (ix2 p k) = m ((c : Thread nD τ).loc main_arg2) (ix2 s k) := by
  obtain ⟨r0a, r0b, r1a, r1b, r2a, r2b, r3a, r3b, r4a, r4b, r16a, r16b, w5a, w5b, w6a, w6b, w8a, w8b, w9a, w9b, w11a, w11b, w13a, w13b, v7, v10, v12, v14, o15b, o15le⟩ := idx_facts t
  show V m c main_arg2 (((cfg0.win 2).blk t).view.emb (ix2 p k)) = m ((c : Thread nD τ).loc main_arg2) (ix2 s k)
  refine (congrFun (V_main_arg2 m c) _).trans (congrArg _ (funext fun ax => Fin.ext ?_))
  match ax with
  | ⟨0, _⟩ => show win0_2.index t (0 : Fin 2) * 256 + 1 * p.val = s.val; omega
  | ⟨1, _⟩ => show win0_2.index t (1 : Fin 2) * 512 + 1 * k.val = k.val; omega

theorem read3 (c : Dev nD) (t : Fin cfg0.N) (p : Fin 256) (s : Fin 16384)
    (hs : s.val = win0_15.index t (0 : Fin 2) * 256 + p.val) (k : Fin 512) :
    iblk m c 3 t (ix2 p k) = m ((c : Thread nD τ).loc main_arg3) (ix2 s k) := by
  obtain ⟨r0a, r0b, r1a, r1b, r2a, r2b, r3a, r3b, r4a, r4b, r16a, r16b, w5a, w5b, w6a, w6b, w8a, w8b, w9a, w9b, w11a, w11b, w13a, w13b, v7, v10, v12, v14, o15b, o15le⟩ := idx_facts t
  show V m c main_arg3 (((cfg0.win 3).blk t).view.emb (ix2 p k)) = m ((c : Thread nD τ).loc main_arg3) (ix2 s k)
  refine (congrFun (V_main_arg3 m c) _).trans (congrArg _ (funext fun ax => Fin.ext ?_))
  match ax with
  | ⟨0, _⟩ => show win0_3.index t (0 : Fin 2) * 256 + 1 * p.val = s.val; omega
  | ⟨1, _⟩ => show win0_3.index t (1 : Fin 2) * 512 + 1 * k.val = k.val; omega

theorem read4 (c : Dev nD) (t : Fin cfg0.N) (p : Fin 256) (s : Fin 16384)
    (hs : s.val = win0_15.index t (0 : Fin 2) * 256 + p.val) (k : Fin 512) :
    iblk m c 4 t (ix2 p k) = m ((c : Thread nD τ).loc main_arg4) (ix2 s k) := by
  obtain ⟨r0a, r0b, r1a, r1b, r2a, r2b, r3a, r3b, r4a, r4b, r16a, r16b, w5a, w5b, w6a, w6b, w8a, w8b, w9a, w9b, w11a, w11b, w13a, w13b, v7, v10, v12, v14, o15b, o15le⟩ := idx_facts t
  show V m c main_arg4 (((cfg0.win 4).blk t).view.emb (ix2 p k)) = m ((c : Thread nD τ).loc main_arg4) (ix2 s k)
  refine (congrFun (V_main_arg4 m c) _).trans (congrArg _ (funext fun ax => Fin.ext ?_))
  match ax with
  | ⟨0, _⟩ => show win0_4.index t (0 : Fin 2) * 256 + 1 * p.val = s.val; omega
  | ⟨1, _⟩ => show win0_4.index t (1 : Fin 2) * 512 + 1 * k.val = k.val; omega

theorem read5 (c : Dev nD) (t : Fin cfg0.N) (k : Fin 512) (j : Fin 512) :
    iblk m c 5 t (ix2 k j) = m ((c : Thread nD τ).loc main_arg5) (ix2 j (lo k)) := by
  obtain ⟨r0a, r0b, r1a, r1b, r2a, r2b, r3a, r3b, r4a, r4b, r16a, r16b, w5a, w5b, w6a, w6b, w8a, w8b, w9a, w9b, w11a, w11b, w13a, w13b, v7, v10, v12, v14, o15b, o15le⟩ := idx_facts t
  show V m c main_v2 (((cfg0.win 5).blk t).view.emb (ix2 k j)) = m ((c : Thread nD τ).loc main_arg5) (ix2 j (lo k))
  have e : ((cfg0.win 5).blk t).view.emb (ix2 k j) = ix2 k j := funext fun ax => Fin.ext (by
    match ax with
    | ⟨0, _⟩ => show win0_5.index t (0 : Fin 2) * 512 + 1 * k.val = k.val; omega
    | ⟨1, _⟩ => show win0_5.index t (1 : Fin 2) * 512 + 1 * j.val = j.val; omega)
  exact (congrArg (V m c main_v2) e).trans (wsfa_apply m c k j)

theorem read6 (c : Dev nD) (t : Fin cfg0.N) (k : Fin 512) (j : Fin 512) :
    iblk m c 6 t (ix2 k j) = m ((c : Thread nD τ).loc main_arg5) (ix2 j (hi k)) := by
  obtain ⟨r0a, r0b, r1a, r1b, r2a, r2b, r3a, r3b, r4a, r4b, r16a, r16b, w5a, w5b, w6a, w6b, w8a, w8b, w9a, w9b, w11a, w11b, w13a, w13b, v7, v10, v12, v14, o15b, o15le⟩ := idx_facts t
  show V m c main_v5 (((cfg0.win 6).blk t).view.emb (ix2 k j)) = m ((c : Thread nD τ).loc main_arg5) (ix2 j (hi k))
  have e : ((cfg0.win 6).blk t).view.emb (ix2 k j) = ix2 k j := funext fun ax => Fin.ext (by
    match ax with
    | ⟨0, _⟩ => show win0_6.index t (0 : Fin 2) * 512 + 1 * k.val = k.val; omega
    | ⟨1, _⟩ => show win0_6.index t (1 : Fin 2) * 512 + 1 * j.val = j.val; omega)
  exact (congrArg (V m c main_v5) e).trans (wsfb_apply m c k j)

theorem read7 (c : Dev nD) (t : Fin cfg0.N) (j : Fin 512) :
    iblk m c 7 t (ix1 j) = m ((c : Thread nD τ).loc main_arg6) (ix1 j) := by
  obtain ⟨r0a, r0b, r1a, r1b, r2a, r2b, r3a, r3b, r4a, r4b, r16a, r16b, w5a, w5b, w6a, w6b, w8a, w8b, w9a, w9b, w11a, w11b, w13a, w13b, v7, v10, v12, v14, o15b, o15le⟩ := idx_facts t
  show V m c main_arg6 (((cfg0.win 7).blk t).view.emb (ix1 j)) = m ((c : Thread nD τ).loc main_arg6) (ix1 j)
  refine (congrFun (V_main_arg6 m c) _).trans (congrArg _ (funext fun ax => Fin.ext ?_))
  match ax with
  | ⟨0, _⟩ => show win0_7.index t (0 : Fin 1) * 512 + 1 * j.val = j.val; omega

theorem read8 (c : Dev nD) (t : Fin cfg0.N) (k : Fin 512) (j : Fin 512) :
    iblk m c 8 t (ix2 k j) = m ((c : Thread nD τ).loc main_arg7) (ix2 j (lo k)) := by
  obtain ⟨r0a, r0b, r1a, r1b, r2a, r2b, r3a, r3b, r4a, r4b, r16a, r16b, w5a, w5b, w6a, w6b, w8a, w8b, w9a, w9b, w11a, w11b, w13a, w13b, v7, v10, v12, v14, o15b, o15le⟩ := idx_facts t
  show V m c main_v8 (((cfg0.win 8).blk t).view.emb (ix2 k j)) = m ((c : Thread nD τ).loc main_arg7) (ix2 j (lo k))
  have e : ((cfg0.win 8).blk t).view.emb (ix2 k j) = ix2 k j := funext fun ax => Fin.ext (by
    match ax with
    | ⟨0, _⟩ => show win0_8.index t (0 : Fin 2) * 512 + 1 * k.val = k.val; omega
    | ⟨1, _⟩ => show win0_8.index t (1 : Fin 2) * 512 + 1 * j.val = j.val; omega)
  exact (congrArg (V m c main_v8) e).trans (wsia_apply m c k j)

theorem read9 (c : Dev nD) (t : Fin cfg0.N) (k : Fin 512) (j : Fin 512) :
    iblk m c 9 t (ix2 k j) = m ((c : Thread nD τ).loc main_arg7) (ix2 j (hi k)) := by
  obtain ⟨r0a, r0b, r1a, r1b, r2a, r2b, r3a, r3b, r4a, r4b, r16a, r16b, w5a, w5b, w6a, w6b, w8a, w8b, w9a, w9b, w11a, w11b, w13a, w13b, v7, v10, v12, v14, o15b, o15le⟩ := idx_facts t
  show V m c main_v11 (((cfg0.win 9).blk t).view.emb (ix2 k j)) = m ((c : Thread nD τ).loc main_arg7) (ix2 j (hi k))
  have e : ((cfg0.win 9).blk t).view.emb (ix2 k j) = ix2 k j := funext fun ax => Fin.ext (by
    match ax with
    | ⟨0, _⟩ => show win0_9.index t (0 : Fin 2) * 512 + 1 * k.val = k.val; omega
    | ⟨1, _⟩ => show win0_9.index t (1 : Fin 2) * 512 + 1 * j.val = j.val; omega)
  exact (congrArg (V m c main_v11) e).trans (wsib_apply m c k j)

theorem read10 (c : Dev nD) (t : Fin cfg0.N) (j : Fin 512) :
    iblk m c 10 t (ix1 j) = m ((c : Thread nD τ).loc main_arg8) (ix1 j) := by
  obtain ⟨r0a, r0b, r1a, r1b, r2a, r2b, r3a, r3b, r4a, r4b, r16a, r16b, w5a, w5b, w6a, w6b, w8a, w8b, w9a, w9b, w11a, w11b, w13a, w13b, v7, v10, v12, v14, o15b, o15le⟩ := idx_facts t
  show V m c main_arg8 (((cfg0.win 10).blk t).view.emb (ix1 j)) = m ((c : Thread nD τ).loc main_arg8) (ix1 j)
  refine (congrFun (V_main_arg8 m c) _).trans (congrArg _ (funext fun ax => Fin.ext ?_))
  match ax with
  | ⟨0, _⟩ => show win0_10.index t (0 : Fin 1) * 512 + 1 * j.val = j.val; omega

theorem read11 (c : Dev nD) (t : Fin cfg0.N) (k : Fin 256) (n : Fin 2048) :
    iblk m c 11 t (ix2 k n) = m ((c : Thread nD τ).loc main_arg9) (ix2 n k) := by
  obtain ⟨r0a, r0b, r1a, r1b, r2a, r2b, r3a, r3b, r4a, r4b, r16a, r16b, w5a, w5b, w6a, w6b, w8a, w8b, w9a, w9b, w11a, w11b, w13a, w13b, v7, v10, v12, v14, o15b, o15le⟩ := idx_facts t
  show V m c main_v13 (((cfg0.win 11).blk t).view.emb (ix2 k n)) = m ((c : Thread nD τ).loc main_arg9) (ix2 n k)
  have e : ((cfg0.win 11).blk t).view.emb (ix2 k n) = ix2 k n := funext fun ax => Fin.ext (by
    match ax with
    | ⟨0, _⟩ => show win0_11.index t (0 : Fin 2) * 256 + 1 * k.val = k.val; omega
    | ⟨1, _⟩ => show win0_11.index t (1 : Fin 2) * 2048 + 1 * n.val = n.val; omega)
  exact (congrArg (V m c main_v13) e).trans (wih_apply m c k n)

theorem read12 (c : Dev nD) (t : Fin cfg0.N) (n : Fin 2048) :
    iblk m c 12 t (ix1 n) = m ((c : Thread nD τ).loc main_arg10) (ix1 n) := by
  obtain ⟨r0a, r0b, r1a, r1b, r2a, r2b, r3a, r3b, r4a, r4b, r16a, r16b, w5a, w5b, w6a, w6b, w8a, w8b, w9a, w9b, w11a, w11b, w13a, w13b, v7, v10, v12, v14, o15b, o15le⟩ := idx_facts t
  show V m c main_arg10 (((cfg0.win 12).blk t).view.emb (ix1 n)) = m ((c : Thread nD τ).loc main_arg10) (ix1 n)
  refine (congrFun (V_main_arg10 m c) _).trans (congrArg _ (funext fun ax => Fin.ext ?_))
  match ax with
  | ⟨0, _⟩ => show win0_12.index t (0 : Fin 1) * 2048 + 1 * n.val = n.val; omega

theorem read13 (c : Dev nD) (t : Fin cfg0.N) (k : Fin 512) (n : Fin 2048) :
    iblk m c 13 t (ix2 k n) = m ((c : Thread nD τ).loc main_arg11) (ix2 n k) := by
  obtain ⟨r0a, r0b, r1a, r1b, r2a, r2b, r3a, r3b, r4a, r4b, r16a, r16b, w5a, w5b, w6a, w6b, w8a, w8b, w9a, w9b, w11a, w11b, w13a, w13b, v7, v10, v12, v14, o15b, o15le⟩ := idx_facts t
  show V m c main_v15 (((cfg0.win 13).blk t).view.emb (ix2 k n)) = m ((c : Thread nD τ).loc main_arg11) (ix2 n k)
  have e : ((cfg0.win 13).blk t).view.emb (ix2 k n) = ix2 k n := funext fun ax => Fin.ext (by
    match ax with
    | ⟨0, _⟩ => show win0_13.index t (0 : Fin 2) * 512 + 1 * k.val = k.val; omega
    | ⟨1, _⟩ => show win0_13.index t (1 : Fin 2) * 2048 + 1 * n.val = n.val; omega)
  exact (congrArg (V m c main_v15) e).trans (whh_apply m c k n)

theorem read14 (c : Dev nD) (t : Fin cfg0.N) (n : Fin 2048) :
    iblk m c 14 t (ix1 n) = m ((c : Thread nD τ).loc main_arg12) (ix1 n) := by
  obtain ⟨r0a, r0b, r1a, r1b, r2a, r2b, r3a, r3b, r4a, r4b, r16a, r16b, w5a, w5b, w6a, w6b, w8a, w8b, w9a, w9b, w11a, w11b, w13a, w13b, v7, v10, v12, v14, o15b, o15le⟩ := idx_facts t
  show V m c main_arg12 (((cfg0.win 14).blk t).view.emb (ix1 n)) = m ((c : Thread nD τ).loc main_arg12) (ix1 n)
  refine (congrFun (V_main_arg12 m c) _).trans (congrArg _ (funext fun ax => Fin.ext ?_))
  match ax with
  | ⟨0, _⟩ => show win0_14.index t (0 : Fin 1) * 2048 + 1 * n.val = n.val; omega

/-- At point t, row p of the row blocks is row s = 256 · (block index) + p of the arrays, and the weight blocks are
    the arrays the host prepared. -/
theorem reads (c : Dev nD) (t : Fin cfg0.N) (p : Fin 256) (s : Fin 16384)
    (hs : s.val = win0_15.index t (0 : Fin 2) * 256 + p.val) :
    Reads (args m c) s p (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) :=
  ⟨read0 m c t p s hs, read1 m c t p s hs, read2 m c t p s hs, read3 m c t p s hs, read4 m c t p s hs,
   read5 m c t, read6 m c t, read7 m c t, read8 m c t, read9 m c t, read10 m c t, read11 m c t, read12 m c t,
   read13 m c t, read14 m c t⟩

/-! ## Output window 15 -/

/-- What the point writes back to this output is its block of the array HNew. -/
theorem flushed15_eq (c : Dev nD) (t : Fin cfg0.N) :
    (dats m 0 c).flushed 15 t = ((cfg0.win 15).blk t).view.read (Elt Ideal) (HNew (args m c)) := by
  rw [Value.flushed15]
  funext y
  obtain ⟨p, q, rfl⟩ : ∃ (p : Fin 256) (q : Fin 512), y = ix2 p q := ⟨y 0, y 1, eq_ix2 y⟩
  obtain ⟨r0a, r0b, r1a, r1b, r2a, r2b, r3a, r3b, r4a, r4b, r16a, r16b, w5a, w5b, w6a, w6b, w8a, w8b, w9a, w9b, w11a, w11b, w13a, w13b, v7, v10, v12, v14, o15b, o15le⟩ := idx_facts t
  have hlt : win0_15.index t (0 : Fin 2) * 256 + p.val < 16384 := by have := p.isLt; omega
  show out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p q) = HNew (args m c) (((cfg0.win 15).blk t).view.emb (ix2 p q))
  have he : ((cfg0.win 15).blk t).view.emb (ix2 p q) = ix2 (⟨win0_15.index t (0 : Fin 2) * 256 + p.val, hlt⟩ : Fin 16384) q :=
    funext fun ax => Fin.ext (by
      match ax with
      | ⟨0, _⟩ => show win0_15.index t (0 : Fin 2) * 256 + 1 * p.val = win0_15.index t (0 : Fin 2) * 256 + p.val; omega
      | ⟨1, _⟩ => show win0_15.index t (1 : Fin 2) * 512 + 1 * q.val = q.val; omega)
  rw [he, HNew_ix2]
  exact hNew_block (reads m c t p _ rfl) q

/-- An index of the array is in a point's block iff each coordinate is in the block's range on its axis. -/
theorem mem_blk15 (t : Fin cfg0.N) (i : S16384x512.Idx) :
    i ∈ ((cfg0.win 15).blk t).view.set ↔ ∀ a : Fin 2, win0_15.index t a * S256x512.size a ≤ (i a).val ∧ (i a).val < win0_15.index t a * S256x512.size a + S256x512.size a := by
  show i ∈ ((View.whole main_v16_0).slice (win0_15.rect t)).set ↔ _
  rw [View.set_slice_whole, Rect.mem_set_unit]
  exact Iff.rfl

/-- Every index of the array is in some point's block: row r lies in the block of the point whose block index is r / 256. -/
theorem cover15 (i : S16384x512.Idx) : ∃ t : Fin cfg0.N, (cfg0.win 15).flush t = true ∧ i ∈ ((cfg0.win 15).blk t).view.set := by
  have hi0 : (i 0).val < 16384 := (i 0).isLt
  have hi1 : (i 1).val < 512 := (i 1).isLt
  obtain ⟨t, ht⟩ := idx_onto ⟨(i 0).val / 256, by omega⟩
  have q0 : win0_15.index t (0 : Fin 2) = (i 0).val / 256 := ht
  obtain ⟨r0a, r0b, r1a, r1b, r2a, r2b, r3a, r3b, r4a, r4b, r16a, r16b, w5a, w5b, w6a, w6b, w8a, w8b, w9a, w9b, w11a, w11b, w13a, w13b, v7, v10, v12, v14, o15b, o15le⟩ := idx_facts t
  refine ⟨t, flush0_15 t, ?_⟩
  rw [mem_blk15]
  intro a
  match a with
  | ⟨0, _⟩ => show win0_15.index t (0 : Fin 2) * 256 ≤ (i 0).val ∧ (i 0).val < win0_15.index t (0 : Fin 2) * 256 + 256; omega
  | ⟨1, _⟩ => show win0_15.index t (1 : Fin 2) * 512 ≤ (i 1).val ∧ (i 1).val < win0_15.index t (1 : Fin 2) * 512 + 512; omega

/-- The array after the run. -/
theorem final15 (c : Dev nD) : (dats m 0 c).arrAt 15 cfg0.N = HNew (args m c) :=
  (dats m 0 c).arrAt_eq_of_cover 15 (HNew (args m c)) (fun t _ => flushed15_eq m c t) cover15

/-! ## Output window 16 -/

/-- What the point writes back to this output is its block of the array CNew. -/
theorem flushed16_eq (c : Dev nD) (t : Fin cfg0.N) :
    (dats m 0 c).flushed 16 t = ((cfg0.win 16).blk t).view.read (Elt Ideal) (CNew (args m c)) := by
  rw [Value.flushed16]
  funext y
  obtain ⟨p, q, rfl⟩ : ∃ (p : Fin 256) (q : Fin 512), y = ix2 p q := ⟨y 0, y 1, eq_ix2 y⟩
  obtain ⟨r0a, r0b, r1a, r1b, r2a, r2b, r3a, r3b, r4a, r4b, r16a, r16b, w5a, w5b, w6a, w6b, w8a, w8b, w9a, w9b, w11a, w11b, w13a, w13b, v7, v10, v12, v14, o15b, o15le⟩ := idx_facts t
  have hlt : win0_15.index t (0 : Fin 2) * 256 + p.val < 16384 := by have := p.isLt; omega
  show out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p q) = CNew (args m c) (((cfg0.win 16).blk t).view.emb (ix2 p q))
  have he : ((cfg0.win 16).blk t).view.emb (ix2 p q) = ix2 (⟨win0_15.index t (0 : Fin 2) * 256 + p.val, hlt⟩ : Fin 16384) q :=
    funext fun ax => Fin.ext (by
      match ax with
      | ⟨0, _⟩ => show win0_16.index t (0 : Fin 2) * 256 + 1 * p.val = win0_15.index t (0 : Fin 2) * 256 + p.val; omega
      | ⟨1, _⟩ => show win0_16.index t (1 : Fin 2) * 512 + 1 * q.val = q.val; omega)
  rw [he, CNew_ix2]
  exact cNew_block (reads m c t p _ rfl) q

/-- An index of the array is in a point's block iff each coordinate is in the block's range on its axis. -/
theorem mem_blk16 (t : Fin cfg0.N) (i : S16384x512.Idx) :
    i ∈ ((cfg0.win 16).blk t).view.set ↔ ∀ a : Fin 2, win0_16.index t a * S256x512.size a ≤ (i a).val ∧ (i a).val < win0_16.index t a * S256x512.size a + S256x512.size a := by
  show i ∈ ((View.whole main_v16_1).slice (win0_16.rect t)).set ↔ _
  rw [View.set_slice_whole, Rect.mem_set_unit]
  exact Iff.rfl

/-- Every index of the array is in some point's block: row r lies in the block of the point whose block index is r / 256. -/
theorem cover16 (i : S16384x512.Idx) : ∃ t : Fin cfg0.N, (cfg0.win 16).flush t = true ∧ i ∈ ((cfg0.win 16).blk t).view.set := by
  have hi0 : (i 0).val < 16384 := (i 0).isLt
  have hi1 : (i 1).val < 512 := (i 1).isLt
  obtain ⟨t, ht⟩ := idx_onto ⟨(i 0).val / 256, by omega⟩
  have q0 : win0_15.index t (0 : Fin 2) = (i 0).val / 256 := ht
  obtain ⟨r0a, r0b, r1a, r1b, r2a, r2b, r3a, r3b, r4a, r4b, r16a, r16b, w5a, w5b, w6a, w6b, w8a, w8b, w9a, w9b, w11a, w11b, w13a, w13b, v7, v10, v12, v14, o15b, o15le⟩ := idx_facts t
  refine ⟨t, flush0_16 t, ?_⟩
  rw [mem_blk16]
  intro a
  match a with
  | ⟨0, _⟩ => show win0_16.index t (0 : Fin 2) * 256 ≤ (i 0).val ∧ (i 0).val < win0_16.index t (0 : Fin 2) * 256 + 256; omega
  | ⟨1, _⟩ => show win0_16.index t (1 : Fin 2) * 512 ≤ (i 1).val ∧ (i 1).val < win0_16.index t (1 : Fin 2) * 512 + 512; omega

/-- The array after the run. -/
theorem final16 (c : Dev nD) : (dats m 0 c).arrAt 16 cfg0.N = CNew (args m c) :=
  (dats m 0 c).arrAt_eq_of_cover 16 (CNew (args m c)) (fun t _ => flushed16_eq m c t) cover16

/-! ## The run, read -/

/-- Every weakly fair execution ends with the first result at h', the second at c', and the arguments unchanged. -/
theorem run : θ_run defs (onTc (τ := τ) (main (F := Ideal))) ⟨m, fun _ => 0, ρ⟩ fun r => ∀ c : Dev nD,
      r.2.mem ((c : Thread nD τ).loc main_v16_0) = HNew (args m c)
      ∧ r.2.mem ((c : Thread nD τ).loc main_v16_1) = CNew (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final15 m c), (h c).2.1.trans (final16 m c), (h c).2.2⟩)
    (run_blocks m ρ)

end Cert.KernelIdeal.Whole

end
-- ==== Proof.RefValue.lean ====
/-
  The reference, one operation at a time, is the cell.

  The reference concatenates ha and hb along the columns into a 16384 × 1024 array and contracts it with the
  transposed 512 × 1024 gate matrix: at (s, j) a sum over all 1024 columns. Its first 512 terms read ha, its last 512
  read hb, so the sum is the cell's two half sums. It spells the logistic function as 1 / (1 + e^(-z)) with the
  constant one broadcast from a scalar; on the extended reals that expression is the logistic function itself. The
  pre-activations are the contraction of x with the transposed Wih, plus its bias, plus the contraction of h with the
  transposed Whh, plus its bias, in that order; the four gates are its column slices at 0, 512, 1024 and 1536.
-/
import proofs.«171903_j83700322664663_1_alg».proof.Proof.Gen.ReferenceIdeal.Read
import proofs.«171903_j83700322664663_1_alg».proof.Proof.CellSpec
import Idealize.ShloMosaic.Lib.IdealHost

noncomputable section

namespace Cert.ReferenceIdeal.RefValue

open Cert.ReferenceIdeal Cert.ReferenceIdeal.Gen Cert.ReferenceIdeal.Read Cert.CellSpec
open Idealize.ShloMosaic Idealize.ShloMosaic.ValueIdx

/-- One over one plus the exponential of the negative, with the constant one given by its pattern: the logistic function. -/
theorem sigmoid_spelled (z : Ideal .f32) :
    FloatOps.hostDivf (FloatOps.ofBits (F := Ideal) .f32 0x3F800000#32) (FloatOps.addf (FloatOps.ofBits (F := Ideal) .f32 0x3F800000#32) (FloatOps.hostUnary .exp (FloatOps.hostNegf z)))
      = Ideal.logistic z := by
  rw [show (FloatOps.ofBits (F := Ideal) .f32 0x3F800000#32) = (1 : EReal) from Ideal.ofBits_one_f32]
  rfl

variable (x0 : (⟨S16384x256, .f32⟩ : BufTy).Contents (Elt Ideal)) (x1 x2 x3 x4 : (⟨S16384x512, .f32⟩ : BufTy).Contents (Elt Ideal))
  (x5 : (⟨S512x1024, .f32⟩ : BufTy).Contents (Elt Ideal)) (x6 : (⟨S512, .f32⟩ : BufTy).Contents (Elt Ideal)) (x7 : (⟨S512x1024, .f32⟩ : BufTy).Contents (Elt Ideal)) (x8 : (⟨S512, .f32⟩ : BufTy).Contents (Elt Ideal))
  (x9 : (⟨S2048x256, .f32⟩ : BufTy).Contents (Elt Ideal)) (x10 : (⟨S2048, .f32⟩ : BufTy).Contents (Elt Ideal)) (x11 : (⟨S2048x512, .f32⟩ : BufTy).Contents (Elt Ideal)) (x12 : (⟨S2048, .f32⟩ : BufTy).Contents (Elt Ideal))

/-- The reference's arguments, by position, as the cell's. -/
abbrev argsOf : Args := ⟨x0, x1, x2, x3, x4, x5, x6, x7, x8, x9, x10, x11, x12⟩

/-! ## The concatenation, read in each half -/

theorem concat_lo (s : Fin 16384) (k : Fin 512) : val_main_v0 (F := Ideal) x3 x4 (ix2 s (lo k)) = x3 (ix2 s k) := by
  unfold val_main_v0
  exact concatenate_pair_apply_left 1 x3 x4 concatenates_S16384x512_S16384x512_S16384x1024_d1 (ix2 s (lo k)) rfl (ix2 s k)
    (fun b => match b with | ⟨0, _⟩ => rfl | ⟨1, _⟩ => rfl)

theorem concat_hi (s : Fin 16384) (k : Fin 512) : val_main_v0 (F := Ideal) x3 x4 (ix2 s (hi k)) = x4 (ix2 s k) := by
  unfold val_main_v0
  exact concatenate_pair_apply_right 1 x3 x4 concatenates_S16384x512_S16384x512_S16384x1024_d1 (ix2 s (hi k)) rfl rfl (ix2 s k)
    (fun b hb => match b, hb with | ⟨0, _⟩, _ => rfl | ⟨1, _⟩, hb => absurd rfl hb)
    (by show k.val + 512 = 512 + k.val; omega)

/-! ## The two spatial gates -/

/-- The forget gate's logit: the contraction over the concatenation is the two half sums. -/
theorem logit_f_eq (s : Fin 16384) (j : Fin 512) :
    val_main_v5 (F := Ideal) x3 x4 x5 x6 (ix2 s j) = logit x3 x4 x5 x6 s j := by
  rw [val_main_v5_apply, val_main_v2_apply, val_main_v4_apply, val_main_v3_apply, sum_halves]
  have el : ∀ k : Fin 1024, lidx_main_v2 (ix2 s j) k = ix2 s k := fun k =>
    funext fun ax => Fin.ext (by match ax with | ⟨0, _⟩ => rfl | ⟨1, _⟩ => rfl)
  have er : ∀ k : Fin 1024, idx_main_v1 (ridx_main_v2 (ix2 s j) k) = ix2 j k := fun k =>
    funext fun ax => Fin.ext (by match ax with | ⟨0, _⟩ => rfl | ⟨1, _⟩ => rfl)
  have eb : idx_main_v3 (idx_main_v4 (ix2 s j)) = ix1 j :=
    funext fun ax => Fin.ext (by match ax with | ⟨0, _⟩ => rfl)
  simp only [val_main_v1_apply, el, er, eb, concat_lo, concat_hi]
  rfl

/-- The input gate's logit, the same way. -/
theorem logit_i_eq (s : Fin 16384) (j : Fin 512) :
    val_main_v16 (F := Ideal) x3 x4 x7 x8 (ix2 s j) = logit x3 x4 x7 x8 s j := by
  rw [val_main_v16_apply, val_main_v13_apply, val_main_v15_apply, val_main_v14_apply, sum_halves]
  have el : ∀ k : Fin 1024, lidx_main_v13 (ix2 s j) k = ix2 s k := fun k =>
    funext fun ax => Fin.ext (by match ax with | ⟨0, _⟩ => rfl | ⟨1, _⟩ => rfl)
  have er : ∀ k : Fin 1024, idx_main_v12 (ridx_main_v13 (ix2 s j) k) = ix2 j k := fun k =>
    funext fun ax => Fin.ext (by match ax with | ⟨0, _⟩ => rfl | ⟨1, _⟩ => rfl)
  have eb : idx_main_v14 (idx_main_v15 (ix2 s j)) = ix1 j :=
    funext fun ax => Fin.ext (by match ax with | ⟨0, _⟩ => rfl)
  simp only [val_main_v12_apply, el, er, eb, concat_lo, concat_hi]
  rfl

/-- The forget gate's expanded sigmoid is the logistic function of its logit. -/
theorem sig_f (i : S16384x512.Idx) :
    val_main_v11 (F := Ideal) x3 x4 x5 x6 i = Ideal.logistic (val_main_v5 (F := Ideal) x3 x4 x5 x6 i) := by
  rw [val_main_v11_apply, val_main_v10_apply, val_main_cst_0_apply, val_main_v9_apply, val_main_v8_apply,
    val_main_cst_apply, val_main_v7_apply, val_main_v6_apply]
  exact sigmoid_spelled _

/-- The input gate's. -/
theorem sig_i (i : S16384x512.Idx) :
    val_main_v22 (F := Ideal) x3 x4 x7 x8 i = Ideal.logistic (val_main_v16 (F := Ideal) x3 x4 x7 x8 i) := by
  rw [val_main_v22_apply, val_main_v21_apply, val_main_cst_2_apply, val_main_v20_apply, val_main_v19_apply,
    val_main_cst_1_apply, val_main_v18_apply, val_main_v17_apply]
  exact sigmoid_spelled _

/-- The reference's gated cell state is c. -/
theorem cGate_eq (s : Fin 16384) (j : Fin 512) :
    val_main_v23 (F := Ideal) x2 x3 x4 x5 x6 (ix2 s j) = cGate (argsOf x0 x1 x2 x3 x4 x5 x6 x7 x8 x9 x10 x11 x12) s j := by
  rw [val_main_v23_apply, sig_f, logit_f_eq]
  rfl

/-- The reference's gated hidden state is h. -/
theorem hGate_eq (s : Fin 16384) (j : Fin 512) :
    val_main_v24 (F := Ideal) x1 x3 x4 x7 x8 (ix2 s j) = hGate (argsOf x0 x1 x2 x3 x4 x5 x6 x7 x8 x9 x10 x11 x12) s j := by
  rw [val_main_v24_apply, sig_i, logit_i_eq]
  rfl

/-! ## The pre-activations and their four slices -/

/-- The reference's pre-activations are the cell's. -/
theorem gates_eq (s : Fin 16384) (n : Fin 2048) :
    val_main_v35 (F := Ideal) x0 x1 x3 x4 x7 x8 x9 x10 x11 x12 (ix2 s n) = gates (argsOf x0 x1 x2 x3 x4 x5 x6 x7 x8 x9 x10 x11 x12) s n := by
  rw [val_main_v35_apply, val_main_v32_apply, val_main_v29_apply, val_main_v26_apply, val_main_v31_apply,
    val_main_v28_apply, val_main_v27_apply, val_main_v34_apply, val_main_v33_apply]
  have el : ∀ k : Fin 256, lidx_main_v26 (ix2 s n) k = ix2 s k := fun k =>
    funext fun ax => Fin.ext (by match ax with | ⟨0, _⟩ => rfl | ⟨1, _⟩ => rfl)
  have er : ∀ k : Fin 256, idx_main_v25 (ridx_main_v26 (ix2 s n) k) = ix2 n k := fun k =>
    funext fun ax => Fin.ext (by match ax with | ⟨0, _⟩ => rfl | ⟨1, _⟩ => rfl)
  have el' : ∀ k : Fin 512, lidx_main_v31 (ix2 s n) k = ix2 s k := fun k =>
    funext fun ax => Fin.ext (by match ax with | ⟨0, _⟩ => rfl | ⟨1, _⟩ => rfl)
  have er' : ∀ k : Fin 512, idx_main_v30 (ridx_main_v31 (ix2 s n) k) = ix2 n k := fun k =>
    funext fun ax => Fin.ext (by match ax with | ⟨0, _⟩ => rfl | ⟨1, _⟩ => rfl)
  have eb : idx_main_v27 (idx_main_v28 (ix2 s n)) = ix1 n := funext fun ax => Fin.ext (by match ax with | ⟨0, _⟩ => rfl)
  have eb' : idx_main_v33 (idx_main_v34 (ix2 s n)) = ix1 n := funext fun ax => Fin.ext (by match ax with | ⟨0, _⟩ => rfl)
  simp only [val_main_v25_apply, val_main_v30_apply, el, er, el', er', eb, eb', hGate_eq x0 x1 x2 x3 x4 x5 x6 x7 x8 x9 x10 x11 x12]
  rfl

theorem slice0_eq (s : Fin 16384) (j : Fin 512) :
    val_main_v36 (F := Ideal) x0 x1 x3 x4 x7 x8 x9 x10 x11 x12 (ix2 s j) = gates (argsOf x0 x1 x2 x3 x4 x5 x6 x7 x8 x9 x10 x11 x12) s (quarter 0 j) := by
  rw [val_main_v36_apply]
  have e : idx_main_v36 (ix2 s j) = ix2 s (quarter 0 j) :=
    funext fun ax => Fin.ext (by match ax with | ⟨0, _⟩ => rfl | ⟨1, _⟩ => show j.val = 0 * 512 + j.val; omega)
  rw [e]
  exact gates_eq x0 x1 x2 x3 x4 x5 x6 x7 x8 x9 x10 x11 x12 s _

theorem slice1_eq (s : Fin 16384) (j : Fin 512) :
    val_main_v37 (F := Ideal) x0 x1 x3 x4 x7 x8 x9 x10 x11 x12 (ix2 s j) = gates (argsOf x0 x1 x2 x3 x4 x5 x6 x7 x8 x9 x10 x11 x12) s (quarter 1 j) := by
  rw [val_main_v37_apply]
  have e : idx_main_v37 (ix2 s j) = ix2 s (quarter 1 j) :=
    funext fun ax => Fin.ext (by match ax with | ⟨0, _⟩ => rfl | ⟨1, _⟩ => show 512 + j.val = 1 * 512 + j.val; omega)
  rw [e]
  exact gates_eq x0 x1 x2 x3 x4 x5 x6 x7 x8 x9 x10 x11 x12 s _

theorem slice2_eq (s : Fin 16384) (j : Fin 512) :
    val_main_v38 (F := Ideal) x0 x1 x3 x4 x7 x8 x9 x10 x11 x12 (ix2 s j) = gates (argsOf x0 x1 x2 x3 x4 x5 x6 x7 x8 x9 x10 x11 x12) s (quarter 2 j) := by
  rw [val_main_v38_apply]
  have e : idx_main_v38 (ix2 s j) = ix2 s (quarter 2 j) :=
    funext fun ax => Fin.ext (by match ax with | ⟨0, _⟩ => rfl | ⟨1, _⟩ => show 1024 + j.val = 2 * 512 + j.val; omega)
  rw [e]
  exact gates_eq x0 x1 x2 x3 x4 x5 x6 x7 x8 x9 x10 x11 x12 s _

theorem slice3_eq (s : Fin 16384) (j : Fin 512) :
    val_main_v39 (F := Ideal) x0 x1 x3 x4 x7 x8 x9 x10 x11 x12 (ix2 s j) = gates (argsOf x0 x1 x2 x3 x4 x5 x6 x7 x8 x9 x10 x11 x12) s (quarter 3 j) := by
  rw [val_main_v39_apply]
  have e : idx_main_v39 (ix2 s j) = ix2 s (quarter 3 j) :=
    funext fun ax => Fin.ext (by match ax with | ⟨0, _⟩ => rfl | ⟨1, _⟩ => show 1536 + j.val = 3 * 512 + j.val; omega)
  rw [e]
  exact gates_eq x0 x1 x2 x3 x4 x5 x6 x7 x8 x9 x10 x11 x12 s _

/-- The LSTM forget gate. -/
theorem sig_fg (i : S16384x512.Idx) :
    val_main_v45 (F := Ideal) x0 x1 x3 x4 x7 x8 x9 x10 x11 x12 i = Ideal.logistic (val_main_v37 (F := Ideal) x0 x1 x3 x4 x7 x8 x9 x10 x11 x12 i) := by
  rw [val_main_v45_apply, val_main_v44_apply, val_main_cst_4_apply, val_main_v43_apply, val_main_v42_apply,
    val_main_cst_3_apply, val_main_v41_apply, val_main_v40_apply]
  exact sigmoid_spelled _

/-- The LSTM input gate. -/
theorem sig_ig (i : S16384x512.Idx) :
    val_main_v52 (F := Ideal) x0 x1 x3 x4 x7 x8 x9 x10 x11 x12 i = Ideal.logistic (val_main_v36 (F := Ideal) x0 x1 x3 x4 x7 x8 x9 x10 x11 x12 i) := by
  rw [val_main_v52_apply, val_main_v51_apply, val_main_cst_6_apply, val_main_v50_apply, val_main_v49_apply,
    val_main_cst_5_apply, val_main_v48_apply, val_main_v47_apply]
  exact sigmoid_spelled _

/-- The LSTM output gate. -/
theorem sig_og (i : S16384x512.Idx) :
    val_main_v61 (F := Ideal) x0 x1 x3 x4 x7 x8 x9 x10 x11 x12 i = Ideal.logistic (val_main_v39 (F := Ideal) x0 x1 x3 x4 x7 x8 x9 x10 x11 x12 i) := by
  rw [val_main_v61_apply, val_main_v60_apply, val_main_cst_8_apply, val_main_v59_apply, val_main_v58_apply,
    val_main_cst_7_apply, val_main_v57_apply, val_main_v56_apply]
  exact sigmoid_spelled _

/-! ## The two results -/

/-- The reference's second result is the new cell state. -/
theorem cNew_eq (s : Fin 16384) (j : Fin 512) :
    val_main_v55 (F := Ideal) x0 x1 x2 x3 x4 x5 x6 x7 x8 x9 x10 x11 x12 (ix2 s j) = cNew (argsOf x0 x1 x2 x3 x4 x5 x6 x7 x8 x9 x10 x11 x12) s j := by
  rw [val_main_v55_apply, val_main_v46_apply, val_main_v54_apply, val_main_v53_apply, sig_fg, sig_ig, slice1_eq, slice0_eq,
    slice2_eq, cGate_eq]
  rfl

/-- The reference's first result is the new hidden state. -/
theorem hNew_eq (s : Fin 16384) (j : Fin 512) :
    val_main_v63 (F := Ideal) x0 x1 x2 x3 x4 x5 x6 x7 x8 x9 x10 x11 x12 (ix2 s j) = hNew (argsOf x0 x1 x2 x3 x4 x5 x6 x7 x8 x9 x10 x11 x12) s j := by
  rw [val_main_v63_apply, val_main_v62_apply, sig_og, slice3_eq, cNew_eq]
  rfl

theorem CNew_eq : val_main_v55 (F := Ideal) x0 x1 x2 x3 x4 x5 x6 x7 x8 x9 x10 x11 x12 = CNew (argsOf x0 x1 x2 x3 x4 x5 x6 x7 x8 x9 x10 x11 x12) := by
  funext i
  obtain ⟨s, j, rfl⟩ : ∃ (s : Fin 16384) (j : Fin 512), i = ix2 s j := ⟨i 0, i 1, eq_ix2 i⟩
  exact cNew_eq x0 x1 x2 x3 x4 x5 x6 x7 x8 x9 x10 x11 x12 s j

theorem HNew_eq : val_main_v63 (F := Ideal) x0 x1 x2 x3 x4 x5 x6 x7 x8 x9 x10 x11 x12 = HNew (argsOf x0 x1 x2 x3 x4 x5 x6 x7 x8 x9 x10 x11 x12) := by
  funext i
  obtain ⟨s, j, rfl⟩ : ∃ (s : Fin 16384) (j : Fin 512), i = ix2 s j := ⟨i 0, i 1, eq_ix2 i⟩
  exact hNew_eq x0 x1 x2 x3 x4 x5 x6 x7 x8 x9 x10 x11 x12 s j

end Cert.ReferenceIdeal.RefValue

end
-- ==== Proof.lean ====
/- The proof of `Cert.Claim`.

   The kernel is one LSTM-style cell step over 16384 rows, 256 rows per grid point. Per row s it gates the carried
   states with two sigmoid gates that are linear in [ha | hb] (the kernel contracts the two halves with the two halves
   of the gate matrix and adds; the reference concatenates and contracts once), forms 2048 pre-activations from x and the
   gated hidden state, and combines their four quarters into c' and h'. On the extended reals the two programs compute
   the same function of the arguments, entry by entry: a sum over the 1024 concatenated columns is the sum of its two
   halves; the kernel's logistic operation is the reference's 1 / (1 + e^(-z)); the hyperbolic tangent is the same
   function on both sides; narrowing to sixteen bits is the identity; and every sum and product is taken in the same
   order on both sides. No finiteness of the inputs is used.

   Proof/CellSpec.lean states the cell; Proof/LibDense.lean reads a matrix product, a bias row, the logistic function and
   tanh at an index; Proof/KernelBlock.lean, KernelPoint.lean, KernelHost.lean and KernelWhole.lean carry the kernel from
   its block values to its two result arrays; Proof/RefValue.lean reads the reference. The three frames are the two
   kernels' runs and the reference's run with the results dropped; the idealization rewrote nothing. -/
import proofs.«171903_j83700322664663_1_alg».proof.Defs
import proofs.«171903_j83700322664663_1_alg».proof.Proof.Gen.Kernel
import proofs.«171903_j83700322664663_1_alg».proof.Proof.Gen.Kernel.Skeleton
import proofs.«171903_j83700322664663_1_alg».proof.Proof.Gen.Kernel.Launch
import proofs.«171903_j83700322664663_1_alg».proof.Proof.Gen.Kernel.Points
import proofs.«171903_j83700322664663_1_alg».proof.Proof.Gen.Kernel.Frame
import proofs.«171903_j83700322664663_1_alg».proof.Proof.Gen.KernelIdeal
import proofs.«171903_j83700322664663_1_alg».proof.Proof.Gen.KernelIdeal.Skeleton
import proofs.«171903_j83700322664663_1_alg».proof.Proof.Gen.KernelIdeal.Launch
import proofs.«171903_j83700322664663_1_alg».proof.Proof.Gen.KernelIdeal.Points
import proofs.«171903_j83700322664663_1_alg».proof.Proof.Gen.KernelIdeal.Frame
import proofs.«171903_j83700322664663_1_alg».proof.Proof.Gen.ReferenceIdeal
import proofs.«171903_j83700322664663_1_alg».proof.Proof.Gen.Pre_finite_inputs
import proofs.«171903_j83700322664663_1_alg».proof.Proof.Gen.KernelIdeal.Value
import proofs.«171903_j83700322664663_1_alg».proof.Proof.Gen.ReferenceIdeal.Run
import proofs.«171903_j83700322664663_1_alg».proof.Proof.Gen.ReferenceIdeal.Read
import proofs.«171903_j83700322664663_1_alg».proof.Proof.KernelWhole
import proofs.«171903_j83700322664663_1_alg».proof.Proof.RefValue
import Idealize.ShloMosaic.Adequacy
import Idealize.ShloMosaic.Init

noncomputable section

namespace Cert.Proof

open Idealize.ShloMosaic Idealize.SL.Sem Cert.CellSpec

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with h' and c' of arguments that agree. -/
theorem algebraic : Cert.algebraic_KernelIdeal_ReferenceIdeal := by
  intro m ρ m' ρ' _ hagree
  refine ⟨fun c => HNew (Cert.KernelIdeal.Whole.args m c), fun c => CNew (Cert.KernelIdeal.Whole.args m c),
    Cert.KernelIdeal.Whole.run m ρ, ?_⟩
  refine (θ_run Cert.ReferenceIdeal.defs _ _).mono (fun r h c => ?_) (Cert.ReferenceIdeal.Value.run (F := Ideal) m' ρ')
  obtain ⟨a0, a1, a2, a3, a4, a5, a6, a7, a8, a9, a10, a11, a12⟩ := hagree c
  refine ⟨(h c).1.trans ?_, (h c).2.1.trans ?_, (h c).2.2⟩
  · rw [Cert.ReferenceIdeal.Read.val_main_v63_eq, Cert.ReferenceIdeal.RefValue.HNew_eq, a0, a1, a2, a3, a4, a5, a6, a7, a8, a9, a10, a11, a12]
  · rw [Cert.ReferenceIdeal.Read.val_main_v55_eq, Cert.ReferenceIdeal.RefValue.CNew_eq, a0, a1, a2, a3, a4, a5, a6, a7, a8, a9, a10, a11, a12]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
